-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_c_6 : IVec S_ 32 := constantI S_ 32 0#32
  let main_v19 : IVec S4096x4096 32 := broadcastInDim S4096x4096 ![] bcast_S_S4096x4096 main_c_6
  let main_v20 : IVec S4096x4096 1 := cmpi .sge main_arg1 main_v19
  let main_c_7 : IVec S_ 32 := constantI S_ 32 16#32
  let main_v21 : IVec S4096x4096 32 := broadcastInDim S4096x4096 ![] bcast_S_S4096x4096 main_c_7
  let main_v22 : IVec S4096x4096 1 := cmpi .slt main_arg1 main_v21
  let main_v23 : IVec S4096x4096 1 := andi main_v20 main_v22
  let main_c_8 : IVec S_ 1 := constantI S_ 1 1#1
  let main_v24 : IVec S_ 1 := (fun x v => Host.reduce IntOp.andi x v reducesTo_S4096x4096_S_d0_1 h_S_) main_v23 main_c_8
  let main_v25 : IVec S_ 1 := andi main_v18 main_v24
  main_v25

def fn {F : FTy → Type} [FloatOps F] (main_arg0 : FVec F S4x2048x4096 .f32) (main_arg1 : IVec S4096x4096 32) (main_arg2 : FVec F S4096x64 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg1 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S8192x4096 : Shape := ⟨2, ![8192, 4096]⟩
abbrev S1024x512 : Shape := ⟨2, ![1024, 512]⟩
abbrev S1024x64 : Shape := ⟨2, ![1024, 64]⟩
abbrev S16x512 : Shape := ⟨2, ![16, 512]⟩
abbrev S1024x16 : Shape := ⟨2, ![1024, 16]⟩
abbrev S1024x1024 : Shape := ⟨2, ![1024, 1024]⟩
abbrev S1x512 : Shape := ⟨2, ![1, 512]⟩
abbrev S64x512 : Shape := ⟨2, ![64, 512]⟩

abbrev nBuf : Space → Nat
  | .hbm => 8
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .f32⟩
  | .hbm, ⟨7, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S1024x64, .f32⟩
  | .local _ .vmem, ⟨5, _⟩ => ⟨S1024x64, .f32⟩
  | .local _ .vmem, ⟨6, _⟩ => ⟨S16x512, .f32⟩
  | .local _ .vmem, ⟨7, _⟩ => ⟨S16x512, .f32⟩
  | .local _ .vmem, ⟨8, _⟩ => ⟨S1024x16, .f32⟩
  | .local _ .vmem, ⟨9, _⟩ => ⟨S1024x16, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32_42 : BitVec 32 := 7#32
  let v123 : BitVec 1 := Scalar.cmpi .eq arg2 c7_i32_42
  let v124 : BitVec 32 := Scalar.extui v123
  let c0_i32_43 : BitVec 32 := 0#32
  let v125 : BitVec 1 := Scalar.cmpi .ne v124 c0_i32_43
  v125

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  iota_S1x512_d1_w32 : S1x512.Iotas .tc 32 [1]
  natLt_1_32 : 1 < 32
  shapeCasts_S1x512_S1x512 : S1x512.ShapeCasts S1x512
  broadcasts_S1x512_S64x512 : S1x512.Broadcasts S64x512
  iota_S64x512_d0_w32 : S64x512.Iotas .tc 32 [0]
  inb_S1024x64_S1024x64_0_0 : ∀ a, (![0, 0] : Fin 2 → Nat) a + S1024x64.size a ≤ S1024x64.size a
  h_S1024x64 : 0 < S1024x64.numel
  shapeCasts_S8192x4096_S4x2048x4096 : S8192x4096.ShapeCasts S4x2048x4096
  dot_S1024x64_S64x512_S1024x512_1_0_0_1_n_n_wf : DotDims.WF S1024x64 S64x512 S1024x512 [1] [0] [0] [1] [] []
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .i32 = 32 ∨ (Rect.block (s := S4096x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S4096x4096x1 : Shape := ⟨3, ![4096, 4096, 1]⟩
abbrev S4096x64x64 : Shape := ⟨3, ![4096, 64, 64]⟩
abbrev S4096x64x1 : Shape := ⟨3, ![4096, 64, 1]⟩
abbrev S4x2048x16 : Shape := ⟨3, ![4, 2048, 16]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .f32⟩
  | .hbm, ⟨3, _⟩ => ⟨S16x4096, .f32⟩
  | .hbm, ⟨4, _⟩ => ⟨S4096x16, .f32⟩
  | .hbm, ⟨5, _⟩ => ⟨S16, .f32⟩
  | .hbm, ⟨6, _⟩ => ⟨S_, .i32⟩
  | .hbm, ⟨7, _⟩ => ⟨S4096x4096, .i32⟩
  | .hbm, ⟨8, _⟩ => ⟨S4096x4096, .i1⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S4096x4096x1, .i32⟩
  | .hbm, ⟨14, _⟩ => ⟨S4096x4096, .f32⟩
  | .hbm, ⟨15, _⟩ => ⟨S4096x64x64, .f32⟩
  | .hbm, ⟨16, _⟩ => ⟨S4096x64x1, .f32⟩
  | .hbm, ⟨17, _⟩ => ⟨S4096x64x64, .f32⟩
  | .hbm, ⟨18, _⟩ => ⟨S4096x64x64, .f32⟩
  | .hbm, ⟨19, _⟩ => ⟨S4096x4096, .f32⟩
  | .hbm, ⟨20, _⟩ => ⟨S4x2048x4096, .f32⟩
  | .hbm, ⟨21, _⟩ => ⟨S4x2048x16, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S_S4x2048x4096 : S_.BroadcastsInDim S4x2048x4096 (![] : Fin 0 → Fin S4x2048x4096.rank)
  gather_S16_S4096x4096x1_S4096x4096_n_0_n_n_0_2_1_wf : GatherDims.WF S16 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.KerTerms.lean ====
/-
  The body's arithmetic under a few names. One grid point adds to the base accumulator the product of its input
  block with its dequantised weight block, and to a second accumulator the input block's products with its block of
  `A`; the last point of a row of points writes the base accumulator plus twice the adapter's contribution. The
  weight block is the looked-up levels times the scales, each scale carried to its 64 columns by a product with a
  0/1 matrix that has, in column `c`, a one in the row numbered by the column's absolute position divided by 64.
-/
import proofs.«415451_j84851373900522_1_alg».proof.Proof.Gen.KernelIdeal.Skeleton

noncomputable section

namespace Cert.KernelIdeal.Terms

open Idealize.ShloMosaic Cert.KernelIdeal Cert.KernelIdeal.Gen

variable {F : FTy → Type} [FloatOps F]

/-- The block number of each of the 512 columns: the column's absolute position `v73` divided by 64, rounding
    towards minus infinity (the truncated quotient, lowered by one where the signs differ and the remainder is not
    zero). -/
def groupVec (v73 : IVec S1x512 32) (c64_i32 : BitVec 32) (v74 : IVec S1x512 32) : IVec S1x512 32 :=
  have v75 : IVec S1x512 32 := divsi v73 v74
  have v76 : IVec S1x512 32 := broadcast S1x512 0#32
  have v77 : IVec S1x512 1 := cmpi .sgt v73 v76
  have v78 : IVec S1x512 32 := extui 32 v77 natLt_1_32
  have v79 : IVec S1x512 32 := broadcast S1x512 0#32
  have v80 : IVec S1x512 1 := cmpi .slt v73 v79
  have v81 : IVec S1x512 32 := extui 32 v80 natLt_1_32
  have v82 : IVec S1x512 32 := subi v78 v81
  let v83 : BitVec 1 := Scalar.cmpi .sgt c64_i32 0#32
  let v84 : BitVec 32 := Scalar.extui v83
  let v85 : BitVec 1 := Scalar.cmpi .slt c64_i32 0#32
  let v86 : BitVec 32 := Scalar.extui v85
  let v87 : BitVec 32 := Scalar.subi v84 v86
  have v88 : IVec S1x512 32 := broadcast S1x512 v87
  have v89 : IVec S1x512 1 := cmpi .ne v82 v88
  have v90 : IVec S1x512 32 := broadcast S1x512 c64_i32
  have v91 : IVec S1x512 32 := remsi v73 v90
  have v92 : IVec S1x512 32 := broadcast S1x512 0#32
  have v93 : IVec S1x512 1 := cmpi .ne v91 v92
  have v94 : IVec S1x512 1 := andi v89 v93
  have v95 : IVec S1x512 32 := broadcast S1x512 1#32
  have v96 : IVec S1x512 32 := subi v75 v95
  have v97 : IVec S1x512 32 := select v94 v96 v75
  have v98 : IVec S1x512 32 := shapeCast S1x512 v97 shapeCasts_S1x512_S1x512
  v98

/-- The 0/1 matrix [64, 512]: one where the row number equals the column's block number. -/
def selMat (v98 : IVec S1x512 32) : FVec F S64x512 .bf16 :=
  have v99 : IVec S64x512 32 := broadcastTo S64x512 v98 broadcasts_S1x512_S64x512
  have v100 : IVec S64x512 32 := iota .tc S64x512 32 [0] iota_S64x512_d0_w32
  have v101 : IVec S64x512 1 := cmpi .eq v100 v99
  have cst_27 : F .f32 := Scalar.ofBits .f32 0x3F800000#32
  have cst_28 : F .f32 := Scalar.ofBits .f32 0x00000000#32
  have v102 : FVec F S64x512 .f32 := broadcast S64x512 cst_27
  have v103 : FVec F S64x512 .f32 := broadcast S64x512 cst_28
  have v104 : FVec F S64x512 .f32 := select v101 v102 v103
  have v105 : FVec F S64x512 .bf16 := truncf .bf16 v104 bitsLt_bf16_f32
  v105

/-- The scales carried to the columns: the block of scales [1024, 64] times the 0/1 matrix. -/
def escale (v105 : FVec F S64x512 .bf16) (v106 : Vec F S1024x64 .f32) : FVec F S1024x512 .f32 :=
  have v107 : FVec F S1024x64 .bf16 := truncf .bf16 v106 bitsLt_bf16_f32
  have cst_31 : FVec F S1024x512 .f32 := constant S1024x512 .f32 0x00000000#32
  have v108 : FVec F S1024x512 .f32 := matmul dot_S1024x64_S64x512_S1024x512_1_0_0_1_n_n none v107 v105 cst_31
  v108

/-- The base accumulator's update, over those names. -/
theorem k0_pay12_eq (v5 : FVec F S1024x512 .bf16) (v69 : FVec F S1024x512 .f32) (v73 : IVec S1x512 32) (c64_i32 : BitVec 32)
    (v74 : IVec S1x512 32) (v106 : Vec F S1024x64 .f32) (v113 : Vec F S1024x1024 .f32) :
    k0_pay12 v5 v69 v73 c64_i32 v74 v106 v113
      = shapeCast S1024x1024 (addf v113 (matmul dot_S1024x512_S1024x512_S1024x1024_1_1_0_0_n_n none v5
          (truncf .bf16 (mulf v69 (escale (selMat (groupVec v73 c64_i32 v74)) v106)) bitsLt_bf16_f32)
          (constant S1024x1024 .f32 0x00000000#32))) shapeCasts_S1024x1024_S1024x1024 := rfl

/-- The base accumulator after a point whose third grid coordinate is the word `kk`: the accumulator before, plus
    the product of the input block with the dequantised weight block. -/
def basePart (kk : BitVec 32) (x0 : Vec F S1024x512 .f32) (x1 : Vec F S1024x512 .i32) (x2 : Vec F S1024x64 .f32)
    (acc : Vec F S1024x1024 .f32) : Vec F S1024x1024 .f32 :=
  k0_pay12 (k0_pay5 x0) (k0_pay8 x1 (k0_pay7 x1) 7#32) (k0_pay9 kk) 64#32 k0_pay10 x2 acc

/-- The accumulator of the input block's products with the block of `A`, after a point. -/
def xaPart (x0 : Vec F S1024x512 .f32) (x3 : Vec F S16x512 .f32) (acc : Vec F S1024x16 .f32) : Vec F S1024x16 .f32 :=
  k0_pay1 (k0_pay11 (k0_pay5 x0) (k0_pay6 x3)) acc

/-- What the last point writes: the base accumulator plus twice the adapter's contribution. -/
def outFin (x4 : Vec F S1024x16 .f32) (xa : Vec F S1024x16 .f32) (base : Vec F S1024x1024 .f32) : Vec F S1024x1024 .f32 :=
  k0_pay2 x4 xa base

end Cert.KernelIdeal.Terms

end
-- ==== Proof.KerPieces.lean ====
/-
  What one run of the body leaves behind, case by case. Where the third grid coordinate is zero the two
  accumulators are first reset to zero and then updated, so they end at the update of zero; elsewhere they end at
  the update of what the point before left in them. At the last point of a row of points the output block is
  written too: the updated base accumulator plus twice the adapter's contribution from the updated second
  accumulator.
-/
import proofs.«415451_j84851373900522_1_alg».proof.Proof.Gen.KernelIdeal.Frame
import proofs.«415451_j84851373900522_1_alg».proof.Proof.KerTerms
import Idealize.ShloMosaic.Lib.Pipeline.Value

set_option maxRecDepth 16384

noncomputable section

namespace Cert.KernelIdeal.Terms

open Idealize.ShloMosaic Idealize.ShloMosaic.TcCoe Idealize.ShloMosaic.Tactic Cert.KernelIdeal Cert.KernelIdeal.Gen

variable {F : FTy → Type} [FloatOps F]

/-- The two zero offsets, spelt as the constant function. -/
theorem hz00 : (![0, 0] : Fin 2 → Nat) = fun _ => 0 := funext fun a => by
  match a with
  | ⟨0, _⟩ => rfl
  | ⟨1, _⟩ => rfl

/-- First point of a row of points: the base accumulator ends at the update of zero. -/
theorem sout0_A_0_eq (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .i32) (x2 : Vec F S1024x64 .f32) (x3 : Vec F S16x512 .f32) (x4 : Vec F S1024x16 .f32) :
    sout0_A_0 c i arg3 harg3 arg4 harg4 arg5 harg5 arg6 harg6 arg7 harg7 arg8 harg8 arg9 harg9 arg10 harg10 hc0 hc1 x0 x1 x2 x3 x4 = basePart (F := F) (BitVec.ofNat 32 (i 2).val) x0 x1 x2 (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz00, View.readCov_unit_zero (S := S1024x1024) _ hz00]
  unfold basePart
  simp only [View.readAt_eq_ld, harg3.read_unread, harg4.read_unread, harg5.read_unread, harg6.read_unread, harg7.read_unread, harg8.read_unread, harg9.read_unread, harg10.read_unread, View.ld_unit_zero (S := S1024x512) hz00, View.ld_unit_zero (S := S1024x64) hz00, View.ld_unit_zero (S := S16x512) hz00, View.ld_unit_zero (S := S1024x16) hz00, View.ld_unit_zero (S := S1024x1024) hz00]

/-- First point of a row of points: the second accumulator ends at the update of zero. -/
theorem sout0_A_1_eq (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .i32) (x2 : Vec F S1024x64 .f32) (x3 : Vec F S16x512 .f32) (x4 : Vec F S1024x16 .f32) :
    sout0_A_1 c i arg3 harg3 arg4 harg4 arg5 harg5 arg6 harg6 arg7 harg7 arg8 harg8 arg9 harg9 arg10 harg10 hc0 hc1 x0 x1 x2 x3 x4 = xaPart (F := F) x0 x3 (k0_pay4 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz00, View.readCov_unit_zero (S := S1024x16) _ hz00]
  unfold xaPart
  simp only [View.readAt_eq_ld, harg3.read_unread, harg4.read_unread, harg5.read_unread, harg6.read_unread, harg7.read_unread, harg8.read_unread, harg9.read_unread, harg10.read_unread, View.ld_unit_zero (S := S1024x512) hz00, View.ld_unit_zero (S := S1024x64) hz00, View.ld_unit_zero (S := S16x512) hz00, View.ld_unit_zero (S := S1024x16) hz00, View.ld_unit_zero (S := S1024x1024) hz00]

/-- A middle point: the base accumulator ends at the update of what it held. -/
theorem sout0_B_0_eq (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .i32) (x2 : Vec F S1024x64 .f32) (x3 : Vec F S16x512 .f32) (x4 : Vec F S1024x16 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = basePart (F := F) (BitVec.ofNat 32 (i 2).val) x0 x1 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x1024) hz00]
  unfold basePart
  simp only [View.readAt_eq_ld, harg3.read_unread, harg4.read_unread, harg5.read_unread, harg6.read_unread, harg7.read_unread, harg8.read_unread, harg9.read_unread, harg10.read_unread, View.ld_unit_zero (S := S1024x512) hz00, View.ld_unit_zero (S := S1024x64) hz00, View.ld_unit_zero (S := S16x512) hz00, View.ld_unit_zero (S := S1024x16) hz00, View.ld_unit_zero (S := S1024x1024) hz00]

/-- A middle point: the second accumulator ends at the update of what it held. -/
theorem sout0_B_1_eq (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .i32) (x2 : Vec F S1024x64 .f32) (x3 : Vec F S16x512 .f32) (x4 : Vec F S1024x16 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = xaPart (F := F) x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x16) hz00]
  unfold xaPart
  simp only [View.readAt_eq_ld, harg3.read_unread, harg4.read_unread, harg5.read_unread, harg6.read_unread, harg7.read_unread, harg8.read_unread, harg9.read_unread, harg10.read_unread, View.ld_unit_zero (S := S1024x512) hz00, View.ld_unit_zero (S := S1024x64) hz00, View.ld_unit_zero (S := S16x512) hz00, View.ld_unit_zero (S := S1024x16) hz00, View.ld_unit_zero (S := S1024x1024) hz00]

/-- The last point: the base accumulator ends at the update of what it held. -/
theorem sout0_C_0_eq (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .i32) (x2 : Vec F S1024x64 .f32) (x3 : Vec F S16x512 .f32) (x4 : Vec F S1024x16 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = basePart (F := F) (BitVec.ofNat 32 (i 2).val) x0 x1 x2 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x1024) hz00]
  unfold basePart
  simp only [View.readAt_eq_ld, harg3.read_unread, harg4.read_unread, harg5.read_unread, harg6.read_unread, harg7.read_unread, harg8.read_unread, harg9.read_unread, harg10.read_unread, View.ld_unit_zero (S := S1024x512) hz00, View.ld_unit_zero (S := S1024x64) hz00, View.ld_unit_zero (S := S16x512) hz00, View.ld_unit_zero (S := S1024x16) hz00, View.ld_unit_zero (S := S1024x1024) hz00]

/-- The last point: the second accumulator ends at the update of what it held. -/
theorem sout0_C_1_eq (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .i32) (x2 : Vec F S1024x64 .f32) (x3 : Vec F S16x512 .f32) (x4 : Vec F S1024x16 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = xaPart (F := F) x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x16) hz00]
  unfold xaPart
  simp only [View.readAt_eq_ld, harg3.read_unread, harg4.read_unread, harg5.read_unread, harg6.read_unread, harg7.read_unread, harg8.read_unread, harg9.read_unread, harg10.read_unread, View.ld_unit_zero (S := S1024x512) hz00, View.ld_unit_zero (S := S1024x64) hz00, View.ld_unit_zero (S := S16x512) hz00, View.ld_unit_zero (S := S1024x16) hz00, View.ld_unit_zero (S := S1024x1024) hz00]

/-- The last point: the output block is the updated base accumulator plus twice the adapter's contribution. -/
theorem out0_C_5_eq (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S1024x64 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .i32) (x2 : Vec F S1024x64 .f32) (x3 : Vec F S16x512 .f32) (x4 : Vec F S1024x16 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1
      = outFin (F := F) x4 (xaPart (F := F) x0 x3 xs1) (basePart (F := F) (BitVec.ofNat 32 (i 2).val) x0 x1 x2 xs0) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x1024) hz00]
  unfold outFin xaPart basePart
  simp only [View.readAt_eq_ld, harg3.read_unread, harg4.read_unread, harg5.read_unread, harg6.read_unread, harg7.read_unread, harg8.read_unread, harg9.read_unread, harg10.read_unread, View.ld_unit_zero (S := S1024x512) hz00, View.ld_unit_zero (S := S1024x64) hz00, View.ld_unit_zero (S := S16x512) hz00, View.ld_unit_zero (S := S1024x16) hz00, View.ld_unit_zero (S := S1024x1024) hz00, View.readCov_unit_zero (S := S1024x16) _ hz00, View.readCov_unit_zero (S := S1024x1024) _ hz00]

end Cert.KernelIdeal.Terms

end
-- ==== Proof.KerBlocks.lean ====
/-
  The 256 grid points are the triples `(i, j, k)` with `i < 8`, `j < 4`, `k < 8`, in row-major order: point `t` has
  `i = t / 32`, `j = (t / 8) % 4`, `k = t % 8`. The input windows' blocks at `t` are rectangles of their arrays: rows
  `1024 i …` and columns `512 k …` of the flattened input, rows `1024 j …` and columns `512 k …` of the codes, rows
  `1024 j …` of the scales (all 64 columns), columns `512 k …` of `A` (all 16 rows), rows `1024 j …` of `B`.
-/
import proofs.«415451_j84851373900522_1_alg».proof.Proof.Gen.KernelIdeal.Frame
import Idealize.ShloMosaic.Lib.ValueIdx

set_option maxRecDepth 16384

noncomputable section

namespace Cert.KernelIdeal.Blocks

open Idealize.ShloMosaic Idealize.ShloMosaic.TcCoe Idealize.ShloMosaic.ValueIdx Cert.KernelIdeal Cert.KernelIdeal.Gen

variable {F : FTy → Type} [FloatOps F]

variable (m : (ℓ : Loc nD τ sig) → Buf (Elt F) ℓ)

/-- The input blocks at a point, at their literal types. -/
abbrev xblk (c : Dev nD) (t : Fin cfg0.N) : Vec F S1024x512 .f32 := iblk m c 0 t
abbrev cblk (c : Dev nD) (t : Fin cfg0.N) : Vec F S1024x512 .i32 := iblk m c 1 t
abbrev sblk (c : Dev nD) (t : Fin cfg0.N) : Vec F S1024x64 .f32 := iblk m c 2 t
abbrev ablk (c : Dev nD) (t : Fin cfg0.N) : Vec F S16x512 .f32 := iblk m c 3 t
abbrev bblk (c : Dev nD) (t : Fin cfg0.N) : Vec F S1024x16 .f32 := iblk m c 4 t

/-- The arrays as the region finds them, at their literal types: the flattened input, the codes, the scales, `A`, `B`. -/
abbrev xarr (c : Dev nD) : Vec F S8192x4096 .f32 := V m c main_v0
abbrev carr (c : Dev nD) : Vec F S4096x4096 .i32 := V m c main_arg1
abbrev sarr (c : Dev nD) : Vec F S4096x64 .f32 := V m c main_arg2
abbrev aarr (c : Dev nD) : Vec F S16x4096 .f32 := V m c main_arg3
abbrev barr (c : Dev nD) : Vec F S4096x16 .f32 := V m c main_arg4

/-- There are 256 points. -/
theorem t_lt (t : Fin cfg0.N) : t.val < 256 := lt_of_lt_of_eq t.isLt N_0

/-- The block indices of the five input windows at point `t`, on each axis, as functions of `t`: decided once over
    the 256 points. -/
theorem idx_facts : ∀ t : Fin cfg0.N,
    win0_0.index t (0 : Fin 2) = t.val / 32 ∧ win0_0.index t (1 : Fin 2) = t.val % 8
    ∧ win0_1.index t (0 : Fin 2) = (t.val / 8) % 4 ∧ win0_1.index t (1 : Fin 2) = t.val % 8
    ∧ win0_2.index t (0 : Fin 2) = (t.val / 8) % 4 ∧ win0_2.index t (1 : Fin 2) = 0
    ∧ win0_3.index t (0 : Fin 2) = 0 ∧ win0_3.index t (1 : Fin 2) = t.val % 8
    ∧ win0_4.index t (0 : Fin 2) = (t.val / 8) % 4 ∧ win0_4.index t (1 : Fin 2) = 0 :=
  (by decide +kernel : ∀ t : Fin grid0.N, _)

/-- The third coordinate of every point, decided over the 256 points. -/
theorem coord_k_all : ∀ t : Fin cfg0.N, ((grid0.coords t) 2).val = t.val % 8 :=
  (by decide +kernel : ∀ t : Fin grid0.N, ((grid0.coords t) 2).val = t.val % 8)

/-- The third grid coordinate of point `t` is `t % 8`. -/
theorem coord_k (t : Fin cfg0.N) : ((grid0.coords t) 2).val = t.val % 8 := coord_k_all t

/-- An entry `(p, cc)` of the input's block at `t` is the flattened input at row `1024 (t / 32) + p`, column
    `512 (t % 8) + cc`: on each axis the block's entry sits at block index × block size + its own coordinate. -/
theorem xblk_apply (c : Dev nD) (t : Fin cfg0.N) (p : Fin 1024) (cc : Fin 512) :
    xblk m c t (ix2 p cc) = xarr m c (ix2 ⟨1024 * (t.val / 32) + p.val, by have := t_lt t; have := p.isLt; omega⟩
      ⟨512 * (t.val % 8) + cc.val, by have := cc.isLt; omega⟩) := by
  obtain ⟨e0, e1, -⟩ := idx_facts t
  show V m c main_v0 (((cfg0.win 0).blk t).view.emb (ix2 p cc)) = V m c main_v0 _
  congr 1
  funext a
  apply Fin.ext
  match a with
  | ⟨0, _⟩ => show win0_0.index t (0 : Fin 2) * 1024 + 1 * p.val = 1024 * (t.val / 32) + p.val; omega
  | ⟨1, _⟩ => show win0_0.index t (1 : Fin 2) * 512 + 1 * cc.val = 512 * (t.val % 8) + cc.val; omega

/-- An entry `(q, cc)` of the codes' block at `t` is the codes at row `1024 ((t / 8) % 4) + q`, column `512 (t % 8) + cc`. -/
theorem cblk_apply (c : Dev nD) (t : Fin cfg0.N) (q : Fin 1024) (cc : Fin 512) :
    cblk m c t (ix2 q cc) = carr m c (ix2 ⟨1024 * ((t.val / 8) % 4) + q.val, by have := q.isLt; omega⟩
      ⟨512 * (t.val % 8) + cc.val, by have := cc.isLt; omega⟩) := by
  obtain ⟨-, -, e0, e1, -⟩ := idx_facts t
  show V m c main_arg1 (((cfg0.win 1).blk t).view.emb (ix2 q cc)) = V m c main_arg1 _
  congr 1
  funext a
  apply Fin.ext
  match a with
  | ⟨0, _⟩ => show win0_1.index t (0 : Fin 2) * 1024 + 1 * q.val = 1024 * ((t.val / 8) % 4) + q.val; omega
  | ⟨1, _⟩ => show win0_1.index t (1 : Fin 2) * 512 + 1 * cc.val = 512 * (t.val % 8) + cc.val; omega

/-- An entry `(q, g)` of the scales' block at `t` is the scales at row `1024 ((t / 8) % 4) + q`, column `g`. -/
theorem sblk_apply (c : Dev nD) (t : Fin cfg0.N) (q : Fin 1024) (g : Fin 64) :
    sblk m c t (ix2 q g) = sarr m c (ix2 ⟨1024 * ((t.val / 8) % 4) + q.val, by have := q.isLt; omega⟩ g) := by
  obtain ⟨-, -, -, -, e0, e1, -⟩ := idx_facts t
  show V m c main_arg2 (((cfg0.win 2).blk t).view.emb (ix2 q g)) = V m c main_arg2 _
  congr 1
  funext a
  apply Fin.ext
  match a with
  | ⟨0, _⟩ => show win0_2.index t (0 : Fin 2) * 1024 + 1 * q.val = 1024 * ((t.val / 8) % 4) + q.val; omega
  | ⟨1, _⟩ => show win0_2.index t (1 : Fin 2) * 64 + 1 * g.val = g.val; omega

/-- An entry `(r, cc)` of `A`'s block at `t` is `A` at row `r`, column `512 (t % 8) + cc`. -/
theorem ablk_apply (c : Dev nD) (t : Fin cfg0.N) (r : Fin 16) (cc : Fin 512) :
    ablk m c t (ix2 r cc) = aarr m c (ix2 r ⟨512 * (t.val % 8) + cc.val, by have := cc.isLt; omega⟩) := by
  obtain ⟨-, -, -, -, -, -, e0, e1, -⟩ := idx_facts t
  show V m c main_arg3 (((cfg0.win 3).blk t).view.emb (ix2 r cc)) = V m c main_arg3 _
  congr 1
  funext a
  apply Fin.ext
  match a with
  | ⟨0, _⟩ => show win0_3.index t (0 : Fin 2) * 16 + 1 * r.val = r.val; omega
  | ⟨1, _⟩ => show win0_3.index t (1 : Fin 2) * 512 + 1 * cc.val = 512 * (t.val % 8) + cc.val; omega

/-- An entry `(q, r)` of `B`'s block at `t` is `B` at row `1024 ((t / 8) % 4) + q`, column `r`. -/
theorem bblk_apply (c : Dev nD) (t : Fin cfg0.N) (q : Fin 1024) (r : Fin 16) :
    bblk m c t (ix2 q r) = barr m c (ix2 ⟨1024 * ((t.val / 8) % 4) + q.val, by have := q.isLt; omega⟩ r) := by
  obtain ⟨-, -, -, -, -, -, -, -, e0, e1⟩ := idx_facts t
  show V m c main_arg4 (((cfg0.win 4).blk t).view.emb (ix2 q r)) = V m c main_arg4 _
  congr 1
  funext a
  apply Fin.ext
  match a with
  | ⟨0, _⟩ => show win0_4.index t (0 : Fin 2) * 1024 + 1 * q.val = 1024 * ((t.val / 8) % 4) + q.val; omega
  | ⟨1, _⟩ => show win0_4.index t (1 : Fin 2) * 16 + 1 * r.val = r.val; omega

end Cert.KernelIdeal.Blocks

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«415451_j84851373900522_1_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.Spec.lean ====
/-
  The quantised linear layer with a low-rank adapter, as one function of its arguments on the extended reals.

  A weight entry is a level of a sixteen-entry codebook, chosen by an integer code, times the scale of the block of
  64 consecutive input positions the entry lies in. An output entry is the inner product of an input row with a
  row of weights, plus twice the adapter's contribution: the row's sixteen inner products with the rows of `A`,
  combined with a row of `B`. A sum over the 4096 input positions is the sum over eight blocks of 512 positions of
  the blocks' partial sums, for any summand, since addition on the extended reals is commutative and associative.
-/
import Idealize.ShloMosaic.PureOps.Ideal.Laws
import Idealize.ShloMosaic.Lib.ValueIdx
import proofs.«415451_j84851373900522_1_alg».proof.Proof.LibBlockSum

noncomputable section

open scoped BigOperators

namespace Cert.Qlora

open Idealize.ShloMosaic Idealize.ShloMosaic.ValueIdx

/-- The sixteen codebook levels, as f32 words, in code order. -/
def nf4 : Fin 16 → BitVec 32 := fun
  | 0 => 0xBF800000#32 | 1 => 0xBF3239B1#32 | 2 => 0xBF066B30#32 | 3 => 0xBECA32A0#32
  | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32
  | 12 => 0x3EE1A4B8#32 | 13 => 0x3F1007AB#32 | 14 => 0x3F3913B3#32 | 15 => 0x3F800000#32
  | _ => 0#32

/-- Level `n` as an extended real: the exact value of its word. -/
def level (n : Fin 16) : EReal := Ideal.ofBits .f32 (nf4 n)

/-- The lookup by fifteen comparisons: start from level 0 and, for each code from 1 to 15 in turn, replace the
    value by that code's level where the word is that code. A word that is none of 1 … 15 keeps level 0. -/
def lutK (w : BitVec 32) : EReal :=
  if w = 15#32 then level 15 else if w = 14#32 then level 14 else if w = 13#32 then level 13
  else if w = 12#32 then level 12 else if w = 11#32 then level 11 else if w = 10#32 then level 10
  else if w = 9#32 then level 9 else if w = 8#32 then level 8 else if w = 7#32 then level 7
  else if w = 6#32 then level 6 else if w = 5#32 then level 5 else if w = 4#32 then level 4
  else if w = 3#32 then level 3 else if w = 2#32 then level 2 else if w = 1#32 then level 1
  else level 0

/-- A negative index counts from the end: `w + 16` where `w` is negative as a signed word, else `w`. -/
def wrapW (w : BitVec 32) : BitVec 32 := Scalar.select (IntOp.cmpi .slt w 0#32) (IntOp.addi w 16#32) w

/-- The lookup by indexing: the wrapped word read as a signed number and clamped into `[0, 15]`. -/
def lutR (w : BitVec 32) : EReal := level ⟨min (wrapW w).toInt.toNat 15, by omega⟩

/-- The dequantised weight at output `o`, input position `d`: the code's level times the scale of block `d / 64`. -/
def dq (L : BitVec 32 → EReal) (codes : (⟨2, ![4096, 4096]⟩ : Shape).Idx → BitVec 32)
    (scales : (⟨2, ![4096, 64]⟩ : Shape).Idx → EReal) (o d : Fin 4096) : EReal :=
  L (codes (ix2 o d)) * scales (ix2 o ⟨d.val / 64, by have := d.isLt; omega⟩)

/-- One output entry from one input row: the base product plus twice the adapter's contribution. -/
def outAt (L : BitVec 32 → EReal) (row : Fin 4096 → EReal) (codes : (⟨2, ![4096, 4096]⟩ : Shape).Idx → BitVec 32)
    (scales : (⟨2, ![4096, 64]⟩ : Shape).Idx → EReal) (A : (⟨2, ![16, 4096]⟩ : Shape).Idx → EReal)
    (B : (⟨2, ![4096, 16]⟩ : Shape).Idx → EReal) (o : Fin 4096) : EReal :=
  (∑ d : Fin 4096, row d * dq L codes scales o d)
    + (∑ r : Fin 16, (∑ d : Fin 4096, row d * A (ix2 r d)) * B (ix2 o r)) * Ideal.ofBits .f32 0x40000000#32

/-- The whole result: entry `(b, s, o)` from row `(b, s)` of the input. -/
def out3 (L : BitVec 32 → EReal) (x : (⟨3, ![4, 2048, 4096]⟩ : Shape).Idx → EReal)
    (codes : (⟨2, ![4096, 4096]⟩ : Shape).Idx → BitVec 32) (scales : (⟨2, ![4096, 64]⟩ : Shape).Idx → EReal)
    (A : (⟨2, ![16, 4096]⟩ : Shape).Idx → EReal) (B : (⟨2, ![4096, 16]⟩ : Shape).Idx → EReal) :
    (⟨3, ![4, 2048, 4096]⟩ : Shape).Idx → EReal :=
  fun j => outAt L (fun d => x (ix3 ⟨(j 0).val, (j 0).isLt⟩ ⟨(j 1).val, (j 1).isLt⟩ d)) codes scales A B ⟨(j 2).val, (j 2).isLt⟩

/-- The same result with the two leading axes of the input merged: entry `(r, o)` from row `r` of the 8192 rows. -/
def out2 (L : BitVec 32 → EReal) (x2 : (⟨2, ![8192, 4096]⟩ : Shape).Idx → EReal)
    (codes : (⟨2, ![4096, 4096]⟩ : Shape).Idx → BitVec 32) (scales : (⟨2, ![4096, 64]⟩ : Shape).Idx → EReal)
    (A : (⟨2, ![16, 4096]⟩ : Shape).Idx → EReal) (B : (⟨2, ![4096, 16]⟩ : Shape).Idx → EReal) :
    (⟨2, ![8192, 4096]⟩ : Shape).Idx → EReal :=
  fun j => outAt L (fun d => x2 (ix2 ⟨(j 0).val, (j 0).isLt⟩ d)) codes scales A B ⟨(j 1).val, (j 1).isLt⟩

/-- Position `c` of block `k` of the 4096 input positions. -/
abbrev pos (k : Fin 8) (c : Fin 512) : Fin 4096 := ⟨512 * k.val + c.val, by have := k.isLt; have := c.isLt; omega⟩

/-- Block `k`'s share of the base product. -/
def baseBlk (L : BitVec 32 → EReal) (row : Fin 4096 → EReal) (codes : (⟨2, ![4096, 4096]⟩ : Shape).Idx → BitVec 32)
    (scales : (⟨2, ![4096, 64]⟩ : Shape).Idx → EReal) (o : Fin 4096) (k : Fin 8) : EReal :=
  ∑ c : Fin 512, row (pos k c) * dq L codes scales o (pos k c)

/-- Block `k`'s share of the row's inner product with row `r` of `A`. -/
def xaBlk (row : Fin 4096 → EReal) (A : (⟨2, ![16, 4096]⟩ : Shape).Idx → EReal) (r : Fin 16) (k : Fin 8) : EReal :=
  ∑ c : Fin 512, row (pos k c) * A (ix2 r (pos k c))

/-- The same shares with the block a natural number (zero past the last block), for sums over an initial range. -/
def baseBlkT (L : BitVec 32 → EReal) (row : Fin 4096 → EReal) (codes : (⟨2, ![4096, 4096]⟩ : Shape).Idx → BitVec 32)
    (scales : (⟨2, ![4096, 64]⟩ : Shape).Idx → EReal) (o : Fin 4096) (k : Nat) : EReal :=
  if h : k < 8 then baseBlk L row codes scales o ⟨k, h⟩ else 0

def xaBlkT (row : Fin 4096 → EReal) (A : (⟨2, ![16, 4096]⟩ : Shape).Idx → EReal) (r : Fin 16) (k : Nat) : EReal :=
  if h : k < 8 then xaBlk row A r ⟨k, h⟩ else 0

/-- A sum over the 4096 positions, block by block. -/
theorem sum_pos {α : Type*} [AddCommMonoid α] (f : Fin 4096 → α) :
    ∑ k : Fin 8, ∑ c : Fin 512, f (pos k c) = ∑ d : Fin 4096, f d :=
  Cert.Lib.sum_blocks (n := 4096) (H := 8) (B := 512) rfl f

/-- The eight blocks' shares of the base product add up to it. -/
theorem baseBlk_total (L : BitVec 32 → EReal) (row : Fin 4096 → EReal) (codes : (⟨2, ![4096, 4096]⟩ : Shape).Idx → BitVec 32)
    (scales : (⟨2, ![4096, 64]⟩ : Shape).Idx → EReal) (o : Fin 4096) :
    ∑ k ∈ Finset.range 8, baseBlkT L row codes scales o k = ∑ d : Fin 4096, row d * dq L codes scales o d := by
  rw [Finset.sum_range, ← sum_pos]
  refine Finset.sum_congr rfl fun k _ => ?_
  unfold baseBlkT
  rw [dif_pos k.isLt]
  rfl

/-- The eight blocks' shares of an inner product with a row of `A` add up to it. -/
theorem xaBlk_total (row : Fin 4096 → EReal) (A : (⟨2, ![16, 4096]⟩ : Shape).Idx → EReal) (r : Fin 16) :
    ∑ k ∈ Finset.range 8, xaBlkT row A r k = ∑ d : Fin 4096, row d * A (ix2 r d) := by
  rw [Finset.sum_range, ← sum_pos]
  refine Finset.sum_congr rfl fun k _ => ?_
  unfold xaBlkT
  rw [dif_pos k.isLt]
  rfl

/-- The output entry from the blocks' shares. -/
theorem outAt_of_blocks (L : BitVec 32 → EReal) (row : Fin 4096 → EReal) (codes : (⟨2, ![4096, 4096]⟩ : Shape).Idx → BitVec 32)
    (scales : (⟨2, ![4096, 64]⟩ : Shape).Idx → EReal) (A : (⟨2, ![16, 4096]⟩ : Shape).Idx → EReal)
    (B : (⟨2, ![4096, 16]⟩ : Shape).Idx → EReal) (o : Fin 4096) :
    (∑ k ∈ Finset.range 8, baseBlkT L row codes scales o k)
      + (∑ r : Fin 16, (∑ k ∈ Finset.range 8, xaBlkT row A r k) * B (ix2 o r)) * Ideal.ofBits .f32 0x40000000#32
      = outAt L row codes scales A B o := by
  unfold outAt
  rw [baseBlk_total]
  simp only [xaBlk_total]

/-- Two lookups that agree on every code of the table give the same result. -/
theorem out3_congr (L L' : BitVec 32 → EReal) (x : (⟨3, ![4, 2048, 4096]⟩ : Shape).Idx → EReal)
    (codes : (⟨2, ![4096, 4096]⟩ : Shape).Idx → BitVec 32) (scales : (⟨2, ![4096, 64]⟩ : Shape).Idx → EReal)
    (A : (⟨2, ![16, 4096]⟩ : Shape).Idx → EReal) (B : (⟨2, ![4096, 16]⟩ : Shape).Idx → EReal)
    (h : ∀ i, L (codes i) = L' (codes i)) : out3 L x codes scales A B = out3 L' x codes scales A B := by
  funext j
  unfold out3 outAt dq
  simp only [h]

end Cert.Qlora

end
-- ==== Proof.KerLookup.lean ====
/-
  The body's fifteen selects, entry by entry, are the lookup by comparisons: the value starts at level 0 and the
  select for code `n` replaces it by level `n` where the word equals `n`; the codes 1 … 15 being distinct, the
  result is the level of the word if it is one of them and level 0 otherwise.
-/
import proofs.«415451_j84851373900522_1_alg».proof.Proof.KerTerms
import proofs.«415451_j84851373900522_1_alg».proof.Proof.Spec

noncomputable section

namespace Cert.KernelIdeal.Terms

open Idealize.ShloMosaic Cert.KernelIdeal Cert.KernelIdeal.Gen

/-- A select on the comparison "the word is the code" is the `if` on that equation. -/
theorem select_cmpi_eq {α : Type} (w c : BitVec 32) (A B : α) :
    Scalar.select (IntOp.cmpi .eq w c) A B = if w = c then A else B := by
  unfold Scalar.select IntOp.cmpi
  by_cases h : w = c
  · subst h
    simp
  · have hb : (w == c) = false := by simpa using h
    simp [hb, h]

/-- A comparison of vectors, read at an entry, compares the entries. -/
theorem cmpi_at {s : Shape} {n : Nat} (p : CmpIPredicate) (x y : IVec s n) (i : s.Idx) :
    cmpi p x y i = IntOp.cmpi p (x i) (y i) := rfl

/-- The selects at an entry are the lookup by comparisons of the entry's word. -/
theorem lookup_apply (x1 : Vec Ideal S1024x512 .i32) (j : S1024x512.Idx) :
    k0_pay8 (F := Ideal) x1 (k0_pay7 (F := Ideal) x1) 7#32 j = Cert.Qlora.lutK (x1 j) := by
  unfold k0_pay8 k0_pay7 Cert.Qlora.lutK
  simp only [ValueIdx.select_apply, ValueIdx.broadcast_apply, cmpi_at, select_cmpi_eq]
  -- both sides are now the same chain of `if`s on the word; level `n` is by definition the value of its word
  rfl

end Cert.KernelIdeal.Terms

end
-- ==== Proof.KerGroup.lean ====
/-
  The scales carried to the columns. Column `c` of the point whose third coordinate is `k` has absolute position
  `512 k + c`, a number below 4096, so its floor quotient by 64 as signed words is the natural quotient
  `(512 k + c) / 64`, a number below 64. The 0/1 matrix has in column `c` a one in that row and zeros elsewhere, so
  the product of the block of scales with it has at `(q, c)` the one scale `(q, (512 k + c) / 64)`: on the extended
  reals a product with zero is zero and with one is the factor.
-/
import proofs.«415451_j84851373900522_1_alg».proof.Proof.KerTerms
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Terms

open Idealize.ShloMosaic Idealize.ShloMosaic.ValueIdx Cert.KernelIdeal Cert.KernelIdeal.Gen

namespace Group

/-! ## Signed word arithmetic on a small non-negative dividend -/

/-- A word below 2³¹ has its top bit clear. -/
theorem msb_false_of_lt {a : BitVec 32} (ha : a.toNat < 2 ^ 31) : a.msb = false :=
  BitVec.msb_eq_false_iff_two_mul_lt.mpr (by omega)

/-- Division by 64 is never at the signed-division corner. -/
theorem not_corner64 (v : BitVec 32) : ¬ IntOp.SDivCorner v 64#32 := by
  rintro (hc | ⟨_, hc⟩)
  · revert hc; decide
  · revert hc; decide

/-- The vector unit's signed quotient of a word below 2³¹ by 64 is the quotient of the values. -/
theorem divsi64 (v : BitVec 32) (hv : v.toNat < 2 ^ 31) :
    IntOp.divsi .vector v 64#32 = BitVec.ofNat 32 (v.toNat / 64) := by
  have h64 : (64#32 : BitVec 32).toNat = 64 := by decide
  have hm : (64#32 : BitVec 32).msb = false := by decide
  simp only [IntOp.divsi, if_neg (not_corner64 v), BitVec.sdiv_eq, msb_false_of_lt hv, hm, BitVec.udiv_eq]
  apply BitVec.eq_of_toNat_eq
  rw [BitVec.toNat_udiv, h64, BitVec.toNat_ofNat]
  omega

/-- The vector unit's signed remainder of a word below 2³¹ by 64 is the remainder of the values. -/
theorem remsi64 (v : BitVec 32) (hv : v.toNat < 2 ^ 31) :
    IntOp.remsi .vector v 64#32 = BitVec.ofNat 32 (v.toNat % 64) := by
  have h64 : (64#32 : BitVec 32).toNat = 64 := by decide
  have hm : (64#32 : BitVec 32).msb = false := by decide
  simp only [IntOp.remsi, if_neg (not_corner64 v), BitVec.srem_eq, msb_false_of_lt hv, hm, BitVec.umod_eq]
  apply BitVec.eq_of_toNat_eq
  rw [BitVec.toNat_umod, h64, BitVec.toNat_ofNat]
  omega

/-- A word below 2³¹ is not below zero as a signed number. -/
theorem cmpi_slt_zero (v : BitVec 32) (hv : v.toNat < 2 ^ 31) : IntOp.cmpi .slt v 0#32 = 0#1 := by
  have h := (StableHlo.Predicate.slt_iff_toNat (a := v) (b := 0#32) hv (by decide)).not
  have h1 : ¬ IntOp.cmpi .slt v 0#32 = 1#1 := h.mpr (by simp)
  revert h1; generalize IntOp.cmpi .slt v 0#32 = c; revert c; decide

/-- A non-zero word below 2³¹ is above zero as a signed number. -/
theorem cmpi_sgt_zero (v : BitVec 32) (hv : v.toNat < 2 ^ 31) (h0 : 0 < v.toNat) : IntOp.cmpi .sgt v 0#32 = 1#1 := by
  have h := StableHlo.Predicate.slt_bool_iff_toNat (a := 0#32) (b := v) (by decide) hv
  simp only [IntOp.cmpi]
  exact h.mpr (by simpa using h0)

/-- The sign word of 64, as the body computes it, is one. -/
theorem sign64 :
    Scalar.subi (Scalar.extui (Scalar.cmpi .sgt 64#32 0#32)) (Scalar.extui (Scalar.cmpi .slt 64#32 0#32)) = 1#32 := by
  decide

/-- The floor quotient by 64 of a word below 2³¹, spelled out as the body does (the truncated quotient, lowered by
    one where the sign words differ and the remainder is not zero), is the quotient of the values: the sign words
    differ only for the zero word, whose remainder is zero. -/
theorem floorWord64 (v : BitVec 32) (hv : v.toNat < 2 ^ 31) :
    Scalar.select
      (IntOp.andi
        (IntOp.cmpi .ne
          (IntOp.subi ((IntOp.cmpi .sgt v 0#32).setWidth 32) ((IntOp.cmpi .slt v 0#32).setWidth 32))
          (Scalar.subi (Scalar.extui (Scalar.cmpi .sgt 64#32 0#32)) (Scalar.extui (Scalar.cmpi .slt 64#32 0#32))))
        (IntOp.cmpi .ne (IntOp.remsi .vector v 64#32) 0#32))
      (IntOp.subi (IntOp.divsi .vector v 64#32) 1#32) (IntOp.divsi .vector v 64#32)
    = BitVec.ofNat 32 (v.toNat / 64) := by
  have hcond : IntOp.andi
        (IntOp.cmpi .ne
          (IntOp.subi ((IntOp.cmpi .sgt v 0#32).setWidth 32) ((IntOp.cmpi .slt v 0#32).setWidth 32))
          (Scalar.subi (Scalar.extui (Scalar.cmpi .sgt 64#32 0#32)) (Scalar.extui (Scalar.cmpi .slt 64#32 0#32))))
        (IntOp.cmpi .ne (IntOp.remsi .vector v 64#32) 0#32) = 0#1 := by
    rw [sign64, cmpi_slt_zero v hv, remsi64 v hv]
    by_cases hz : v.toNat = 0
    · have : IntOp.cmpi .ne (BitVec.ofNat 32 (v.toNat % 64)) 0#32 = 0#1 := by
        rw [hz]; decide
      rw [this]; simp [IntOp.andi]
    · rw [cmpi_sgt_zero v hv (by omega)]
      have : IntOp.cmpi .ne (IntOp.subi ((1#1 : BitVec 1).setWidth 32) ((0#1 : BitVec 1).setWidth 32)) 1#32 = 0#1 := by decide
      rw [this]; simp [IntOp.andi]
  rw [hcond, select_zero, divsi64 v hv]

/-! ## One column's block number -/

/-- The body's floor quotient by 64, read at an index where the dividend is below 2³¹. -/
theorem groupVec_at (v73 : IVec S1x512 32) (j : S1x512.Idx) (hv : (v73 j).toNat < 2 ^ 31) :
    groupVec v73 64#32 k0_pay10 j = BitVec.ofNat 32 ((v73 j).toNat / 64) := by
  simp only [groupVec, k0_pay10, shapeCast_self, select, andi, cmpi, subi, extui, divsi, remsi, broadcast]
  exact floorWord64 _ hv

/-- The column's absolute position as a word: `512 k + c`, with no wrap. -/
theorem k0_pay9_apply (k : Fin 8) (cc : Fin 512) :
    k0_pay9 (BitVec.ofNat 32 k.val) (ix2 (0 : Fin 1) cc) = BitVec.ofNat 32 (512 * k.val + cc.val) := by
  have hk := k.isLt
  have hc := cc.isLt
  simp only [k0_pay9, addi, broadcast, iota, List.foldl]
  show IntOp.addi (Scalar.muli (BitVec.ofNat 32 k.val) 512#32) (BitVec.ofNat 32 (0 * 512 + cc.val)) = _
  apply BitVec.eq_of_toNat_eq
  simp only [IntOp.addi, Scalar.muli, IntOp.muli, BitVec.toNat_add, BitVec.toNat_mul, BitVec.toNat_ofNat]
  omega

/-- The value of that word. -/
theorem k0_pay9_toNat (k : Fin 8) (cc : Fin 512) :
    (k0_pay9 (BitVec.ofNat 32 k.val) (ix2 (0 : Fin 1) cc)).toNat = 512 * k.val + cc.val := by
  have hk := k.isLt
  have hc := cc.isLt
  rw [k0_pay9_apply, BitVec.toNat_ofNat]
  omega

/-! ## The 0/1 matrix at an index -/

/-- A select on the comparison "equal" of two words is the `if` on their equality. -/
theorem select_cmpi_eq {α : Type} (x y : BitVec 32) (a b : α) :
    Scalar.select (IntOp.cmpi .eq x y) a b = if x = y then a else b := by
  by_cases h : x = y
  · subst h; simp [Scalar.select, IntOp.cmpi]
  · have hb : (x == y) = false := by simpa using h
    simp [Scalar.select, IntOp.cmpi, hb, h]

/-- The pattern of 1.0 denotes one. -/
theorem ofBits_one_f32 : Ideal.ofBits .f32 0x3F800000#32 = 1 := IdealRules.sign_bit.ideal_onePat .f32

/-- The 0/1 matrix at `(g, c)`: one where the row number is the word in column `c` of the block numbers. -/
theorem selMat_apply (gv : IVec S1x512 32) (g : Fin 64) (cc : Fin 512) :
    selMat (F := Ideal) gv (ix2 g cc)
      = if BitVec.ofNat 32 g.val = gv (ix2 (0 : Fin 1) cc) then (1 : EReal) else 0 := by
  simp only [selMat, truncf_apply, select_apply, broadcast_apply, cmpi, iota, List.foldl]
  rw [broadcastTo_1b_ab_apply, select_cmpi_eq]
  show (if BitVec.ofNat 32 (0 * 64 + g.val) = gv (ix2 (0 : Fin 1) cc) then Ideal.ofBits .f32 0x3F800000#32
      else Ideal.ofBits .f32 0x00000000#32) = _
  rw [ofBits_one_f32, Ideal.ofBits_zero_f32, Nat.zero_mul, Nat.zero_add]

/-! ## The product with the 0/1 matrix -/

/-- The left operand's row coordinate is the result's. -/
theorem lhs_sel_0 (j : S1024x512.Idx) (kk : dot_S1024x64_S64x512_S1024x512_1_0_0_1_n_n.contr.Idx) :
    (dot_S1024x64_S64x512_S1024x512_1_0_0_1_n_n.lhsIdx j kk 0).val = (j 0).val := by
  unfold DotDims.lhsIdx
  rw [dif_neg (show ¬ (0 : Fin S1024x64.rank) ∈ dot_S1024x64_S64x512_S1024x512_1_0_0_1_n_n.lhsBatch by decide),
    dif_pos (show (0 : Fin S1024x64.rank) ∈ dot_S1024x64_S64x512_S1024x512_1_0_0_1_n_n.lhsNonContracting by decide)]
  rfl

/-- The left operand's column coordinate is the contraction position. -/
theorem lhs_sel_1 (j : S1024x512.Idx) (kk : dot_S1024x64_S64x512_S1024x512_1_0_0_1_n_n.contr.Idx) :
    (dot_S1024x64_S64x512_S1024x512_1_0_0_1_n_n.lhsIdx j kk 1).val = (kk ⟨0, by decide⟩).val :=
  DotDims.lhsIdx_val_of_single _ rfl j kk

/-- The right operand's row coordinate is the contraction position. -/
theorem rhs_sel_0 (j : S1024x512.Idx) (kk : dot_S1024x64_S64x512_S1024x512_1_0_0_1_n_n.contr.Idx) :
    (dot_S1024x64_S64x512_S1024x512_1_0_0_1_n_n.rhsIdx j kk 0).val = (kk ⟨0, by decide⟩).val :=
  DotDims.rhsIdx_val_of_single _ rfl j kk

/-- The right operand's column coordinate is the result's. -/
theorem rhs_sel_1 (j : S1024x512.Idx) (kk : dot_S1024x64_S64x512_S1024x512_1_0_0_1_n_n.contr.Idx) :
    (dot_S1024x64_S64x512_S1024x512_1_0_0_1_n_n.rhsIdx j kk 1).val = (j 1).val := by
  unfold DotDims.rhsIdx
  rw [dif_neg (show ¬ (1 : Fin S64x512.rank) ∈ dot_S1024x64_S64x512_S1024x512_1_0_0_1_n_n.rhsBatch by decide),
    dif_pos (show (1 : Fin S64x512.rank) ∈ dot_S1024x64_S64x512_S1024x512_1_0_0_1_n_n.rhsNonContracting by decide)]
  rfl

/-- The product of a block of scales with any `[64, 512]` matrix, read at `(q, c)`: the sum over the 64 rows. -/
theorem escale_sum (sel : FVec Ideal S64x512 .bf16) (x2 : Vec Ideal S1024x64 .f32) (q : Fin 1024) (cc : Fin 512) :
    escale (F := Ideal) sel x2 (ix2 q cc) = ∑ g : Fin 64, x2 (ix2 q g) * sel (ix2 g cc) := by
  simp only [escale, matmul]
  rw [Ideal.matmul_constant_zero_apply]
  rw [← Equiv.sum_comp (contrEquiv1 dot_S1024x64_S64x512_S1024x512_1_0_0_1_n_n 64 rfl rfl).symm]
  refine Finset.sum_congr rfl fun g _ => ?_
  have hl : dot_S1024x64_S64x512_S1024x512_1_0_0_1_n_n.lhsIdx (ix2 q cc) ((contrEquiv1 dot_S1024x64_S64x512_S1024x512_1_0_0_1_n_n 64 rfl rfl).symm g) = ix2 q g := by
    funext a
    match a with
    | ⟨0, _⟩ => exact Fin.ext (lhs_sel_0 _ _)
    | ⟨1, _⟩ => exact Fin.ext ((lhs_sel_1 _ _).trans (contrEquiv1_symm_val dot_S1024x64_S64x512_S1024x512_1_0_0_1_n_n 64 rfl rfl g))
  have hr : dot_S1024x64_S64x512_S1024x512_1_0_0_1_n_n.rhsIdx (ix2 q cc) ((contrEquiv1 dot_S1024x64_S64x512_S1024x512_1_0_0_1_n_n 64 rfl rfl).symm g) = ix2 g cc := by
    funext a
    match a with
    | ⟨0, _⟩ => exact Fin.ext ((rhs_sel_0 _ _).trans (contrEquiv1_symm_val dot_S1024x64_S64x512_S1024x512_1_0_0_1_n_n 64 rfl rfl g))
    | ⟨1, _⟩ => exact Fin.ext (rhs_sel_1 _ _)
  rw [hl, hr]
  rfl

end Group

open Group

/-- The block number of column `c` at the point whose third coordinate is `k`. -/
theorem groupVec_apply (k : Fin 8) (cc : Fin 512) :
    groupVec (k0_pay9 (BitVec.ofNat 32 k.val)) 64#32 k0_pay10 (ix2 (0 : Fin 1) cc) = BitVec.ofNat 32 ((512 * k.val + cc.val) / 64) := by
  have hk := k.isLt
  have hc := cc.isLt
  rw [groupVec_at _ _ (by rw [k0_pay9_toNat]; omega), k0_pay9_toNat]

/-- The carried scale at `(q, c)` is the scale of the column's block. -/
theorem escale_apply (k : Fin 8) (x2 : Vec Ideal S1024x64 .f32) (q : Fin 1024) (cc : Fin 512) :
    escale (F := Ideal) (selMat (F := Ideal) (groupVec (k0_pay9 (BitVec.ofNat 32 k.val)) 64#32 k0_pay10)) x2 (ix2 q cc)
      = x2 (ix2 q ⟨(512 * k.val + cc.val) / 64, by have := k.isLt; have := cc.isLt; omega⟩) := by
  have hk := k.isLt
  have hc := cc.isLt
  have hG : (512 * k.val + cc.val) / 64 < 64 := by omega
  rw [escale_sum]
  simp only [selMat_apply, groupVec_apply]
  rw [Finset.sum_eq_single_of_mem (⟨(512 * k.val + cc.val) / 64, hG⟩ : Fin 64) (Finset.mem_univ _)]
  · rw [if_pos rfl, mul_one]
  · intro g _ hne
    have hg := g.isLt
    rw [if_neg, mul_zero]
    intro heq
    apply hne
    apply Fin.ext
    have h := congrArg BitVec.toNat heq
    simp only [BitVec.toNat_ofNat] at h
    show g.val = (512 * k.val + cc.val) / 64
    omega

end Cert.KernelIdeal.Terms

end
-- ==== Proof.LibRowsDot.lean ====
/-
  A product of rows with rows read at an element, on the extended reals.

  For the dimension numbers of a matrix times the transpose of another — `[M, K]` by `[N, K]`, the left operand's
  axis 1 contracted with the right operand's axis 1, no batch axes — the operand indices at output element `(a, b)`
  and contraction coordinate `k` are `(a, k)` and `(b, k)`: row `a` of the left operand meets row `b` of the right
  one. So a product accumulated into the zero splat is, at `(a, b)`, the inner product of the two rows,
  `∑ k : Fin K, lhs (a, k) * rhs (b, k)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a product of rows with rows `[M, K] × [N, K] → [M, N]`: `lhs_contracting = [1]`,
    `rhs_contracting = [1]`, each operand's axis 0 an axis of the result, no batch axes. At a printed record every
    field is `rfl`. -/
structure RowsDot {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {M K N : Nat} {d : DotDims ⟨2, ![M, K]⟩ ⟨2, ![N, K]⟩ ⟨2, ![M, N]⟩}

/-- A product of rows with rows contracts one axis. -/
theorem RowsDot.rank_contr (hd : RowsDot d) : d.contr.rank = 1 := by
  rw [d.rank_contr, hd.lc]; rfl

/-- The contracted axis has extent `K`, the length of a row. -/
theorem RowsDot.size_contr (hd : RowsDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem RowsDot.lhs0 (hd : RowsDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem RowsDot.lhs1 (hd : RowsDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the output's column. -/
theorem RowsDot.rhs0 (hd : RowsDot d) (i : (⟨2, ![M, N]⟩ : Shape).Idx) (q : d.contr.Idx) :
    (d.rhsIdx i q 0).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The right operand's column is the contraction coordinate. -/
theorem RowsDot.rhs1 (hd : RowsDot d) (i : (⟨2, ![M, N]⟩ : Shape).Idx) (q : d.contr.Idx) :
    (d.rhsIdx i q 1).val = (q ⟨0, by rw [hd.rank_contr]; exact Nat.one_pos⟩).val :=
  d.rhsIdx_val_of_single hd.rc i q

/-- The contraction of a product of rows with rows, re-indexed by the contracted coordinate: at output element
    `(a, b)` it is the inner product of row `a` of the left operand and row `b` of the right one,
    `∑ k : Fin K, lhs (a, k) * rhs (b, k)`. -/
theorem RowsDot.sum_contr (hd : RowsDot d) (lhs : (⟨2, ![M, K]⟩ : Shape).Idx → EReal)
    (rhs : (⟨2, ![N, K]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 b k) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 b k :=
    funext fun x => Fin.ext (by
      match x with
      | ⟨0, _⟩ => exact hd.rhs0 _ _
      | ⟨1, _⟩ => exact (hd.rhs1 _ _).trans hk)
  rw [el, er]

/-- A product of rows with rows accumulated into the zero splat, at element `(a, b)`:
    `∑ k, lhs (a, k) * rhs (b, k)`. -/
theorem RowsDot.matmul_zero_apply (hd : RowsDot d) {φ₁ φ₂ : FTy} (prec : Option ContractPrecision)
    (lhs : FVec Ideal ⟨2, ![M, K]⟩ φ₁) (rhs : FVec Ideal ⟨2, ![N, K]⟩ φ₂) (a : Fin M) (b : Fin N) :
    FloatOps.matmul d prec lhs rhs (constant ⟨2, ![M, N]⟩ .f32 0x00000000#32) (ix2 a b)
      = ∑ k : Fin K, lhs (ix2 a k) * rhs (ix2 b k) :=
  (Ideal.matmul_constant_zero_apply d prec lhs rhs (ix2 a b)).trans (hd.sum_contr lhs rhs a b)

/-- The host's `dot_general` of rows with rows at element `(a, b)`: the same sum. -/
theorem RowsDot.dotGeneral_apply (hd : RowsDot d) {φ₁ φ₂ : FTy} (prec : Option ContractPrecision) (sched : HostSchedule)
    (lhs : FVec Ideal ⟨2, ![M, K]⟩ φ₁) (rhs : FVec Ideal ⟨2, ![N, K]⟩ φ₂) (a : Fin M) (b : Fin N) :
    FloatOps.dotGeneral d prec sched lhs rhs (ix2 a b) = ∑ k : Fin K, lhs (ix2 a k) * rhs (ix2 b k) :=
  (Ideal.dotGeneral_apply d prec sched lhs rhs (ix2 a b)).trans (hd.sum_contr lhs rhs a b)

end Cert.Lib

end
-- ==== Proof.KerPay.lean ====
/-
  The body's three results, entry by entry on the extended reals. A product of two blocks contracted over their
  512 (or 16) columns is, at `(p, q)`, the sum over the column of row `p` of the one times row `q` of the other; a
  change of float format is the identity. So a point adds to the base accumulator at `(p, q)` the sum over its 512
  columns of the input entry times the level times the block's scale, adds to the second accumulator at `(p, r)`
  the sum of the input entry times the entry of `A`, and the last point writes the base accumulator plus twice the
  sum over the sixteen columns of the second accumulator times the entry of `B`.
-/
import proofs.«415451_j84851373900522_1_alg».proof.Proof.KerLookup
import proofs.«415451_j84851373900522_1_alg».proof.Proof.KerGroup
import proofs.«415451_j84851373900522_1_alg».proof.Proof.LibRowsDot
import Idealize.ShloMosaic.Lib.Pipeline.Value

noncomputable section

open scoped BigOperators

namespace Cert.KernelIdeal.Terms

open Idealize.ShloMosaic Idealize.ShloMosaic.ValueIdx Cert.KernelIdeal Cert.KernelIdeal.Gen

/-- The three products of the body contract each operand's columns: rows meet rows. -/
theorem rows_base : Cert.Lib.RowsDot dot_S1024x512_S1024x512_S1024x1024_1_1_0_0_n_n := ⟨rfl, rfl, rfl, rfl, rfl, rfl⟩
theorem rows_xa : Cert.Lib.RowsDot dot_S1024x512_S16x512_S1024x16_1_1_0_0_n_n := ⟨rfl, rfl, rfl, rfl, rfl, rfl⟩
theorem rows_out : Cert.Lib.RowsDot dot_S1024x16_S1024x16_S1024x1024_1_1_0_0_n_n := ⟨rfl, rfl, rfl, rfl, rfl, rfl⟩

/-- The base accumulator's reset value is zero. -/
theorem zero_base (j : S1024x1024.Idx) : k0_pay3 (F := Ideal) j = 0 := by
  unfold k0_pay3
  rw [shapeCast_self]
  exact Ideal.ofBits_zero_f32

/-- The second accumulator's reset value is zero. -/
theorem zero_xa (j : S1024x16.Idx) : k0_pay4 (F := Ideal) j = 0 := by
  unfold k0_pay4
  rw [shapeCast_self]
  exact Ideal.ofBits_zero_f32

/-- The base accumulator after a point, at an entry. -/
theorem basePart_apply (k : Fin 8) (x0 : Vec Ideal S1024x512 .f32) (x1 : Vec Ideal S1024x512 .i32) (x2 : Vec Ideal S1024x64 .f32)
    (acc : Vec Ideal S1024x1024 .f32) (p q : Fin 1024) :
    basePart (F := Ideal) (BitVec.ofNat 32 k.val) x0 x1 x2 acc (ix2 p q)
      = acc (ix2 p q) + ∑ cc : Fin 512, x0 (ix2 p cc) * (Cert.Qlora.lutK (x1 (ix2 q cc))
          * x2 (ix2 q ⟨(512 * k.val + cc.val) / 64, by have := k.isLt; have := cc.isLt; omega⟩)) := by
  unfold basePart
  refine (congrFun (k0_pay12_eq _ _ _ _ _ _ _) (ix2 p q)).trans ?_
  rw [shapeCast_self, addf_apply]
  refine congrArg (acc (ix2 p q) + ·) ?_
  refine (rows_base.matmul_zero_apply none _ _ p q).trans ?_
  refine Finset.sum_congr rfl fun cc _ => ?_
  have e0 : k0_pay5 (F := Ideal) x0 (ix2 p cc) = x0 (ix2 p cc) := by
    unfold k0_pay5
    rw [truncf_apply, shapeCast_self]
  rw [e0, truncf_apply, mulf_apply, lookup_apply, escale_apply k x2 q cc]

/-- The second accumulator after a point, at an entry. -/
theorem xaPart_apply (x0 : Vec Ideal S1024x512 .f32) (x3 : Vec Ideal S16x512 .f32) (acc : Vec Ideal S1024x16 .f32)
    (p : Fin 1024) (r : Fin 16) :
    xaPart (F := Ideal) x0 x3 acc (ix2 p r) = acc (ix2 p r) + ∑ cc : Fin 512, x0 (ix2 p cc) * x3 (ix2 r cc) := by
  unfold xaPart k0_pay1 k0_pay11
  rw [shapeCast_self, addf_apply]
  refine congrArg (acc (ix2 p r) + ·) ?_
  refine (rows_xa.matmul_zero_apply none _ _ p r).trans ?_
  refine Finset.sum_congr rfl fun cc _ => ?_
  unfold k0_pay5 k0_pay6
  rw [truncf_apply, truncf_apply, shapeCast_self]

/-- What the last point writes, at an entry. -/
theorem outFin_apply (x4 : Vec Ideal S1024x16 .f32) (xa : Vec Ideal S1024x16 .f32) (base : Vec Ideal S1024x1024 .f32)
    (p q : Fin 1024) :
    outFin (F := Ideal) x4 xa base (ix2 p q)
      = base (ix2 p q) + (∑ r : Fin 16, xa (ix2 p r) * x4 (ix2 q r)) * Ideal.ofBits .f32 0x40000000#32 := by
  unfold outFin k0_pay2
  rw [addf_apply, mulf_apply, broadcast_apply]
  refine congrArg (fun t => base (ix2 p q) + t * Ideal.ofBits .f32 0x40000000#32) ?_
  refine (rows_out.matmul_zero_apply none _ _ p q).trans ?_
  refine Finset.sum_congr rfl fun r _ => ?_
  rw [truncf_apply, truncf_apply]

end Cert.KernelIdeal.Terms

end
-- ==== Proof.KerInduct.lean ====
/-
  What the accumulators hold after each point, on the extended reals. Along a row of eight points `k = 0 … 7` with
  the same `(i, j)`, after point `k` the base accumulator holds at `(p, q)` the sum of the shares of blocks `0 … k`
  of the base product of input row `1024 i + p` with output `1024 j + q`, and the second accumulator at `(p, r)` the
  sum of the shares of blocks `0 … k` of that row's inner product with row `r` of `A`: by induction on the point,
  the first point of a row starting from zero. After the last point of a row the output block holds the layer's
  result at `(1024 i + p, 1024 j + q)`.
-/
import proofs.«415451_j84851373900522_1_alg».proof.Proof.KerPieces
import proofs.«415451_j84851373900522_1_alg».proof.Proof.KerBlocks
import proofs.«415451_j84851373900522_1_alg».proof.Proof.KerPay

set_option maxRecDepth 16384

noncomputable section

open scoped BigOperators

namespace Cert.KernelIdeal.Induct

open Idealize.ShloMosaic Idealize.ShloMosaic.TcCoe Idealize.ShloMosaic.ValueIdx Cert.KernelIdeal Cert.KernelIdeal.Gen
  Cert.KernelIdeal.Terms Cert.KernelIdeal.Blocks

variable (m : (ℓ : Loc nD τ sig) → Buf (Elt Ideal) ℓ)

/-! ## The accumulators at a point, from the point's blocks and what the point before left -/

/-- At the first point of a row of points the base accumulator is the update of zero. -/
theorem base_first (c : Dev nD) (t : Fin cfg0.N) (h0 : t.val % 8 = 0) :
    (outsAt0 (F := Ideal) m c t.val t.isLt).2.1
      = basePart (F := Ideal) (BitVec.ofNat 32 ((grid0.coords t) 2).val) (xblk m c t) (cblk m c t) (sblk m c t) (k0_pay3 (F := Ideal)) := by
  have h1 : ¬t.val % 8 = 7 := by omega
  rw [outsAt0_A m c t h0 h1]
  dsimp only
  exact sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (cblk m c t) (sblk m c t) (ablk m c t) (bblk m c t)

/-- At the first point of a row of points the second accumulator is the update of zero. -/
theorem xa_first (c : Dev nD) (t : Fin cfg0.N) (h0 : t.val % 8 = 0) :
    (outsAt0 (F := Ideal) m c t.val t.isLt).2.2
      = xaPart (F := Ideal) (xblk m c t) (ablk m c t) (k0_pay4 (F := Ideal)) := by
  have h1 : ¬t.val % 8 = 7 := by omega
  rw [outsAt0_A m c t h0 h1]
  dsimp only
  exact sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (cblk m c t) (sblk m c t) (ablk m c t) (bblk m c t)

/-- At a later point of a row the base accumulator is the update of what the point before left in it. -/
theorem base_next (c : Dev nD) (t : Fin cfg0.N) (h0 : ¬t.val % 8 = 0) :
    (outsAt0 (F := Ideal) m c t.val t.isLt).2.1
      = basePart (F := Ideal) (BitVec.ofNat 32 ((grid0.coords t) 2).val) (xblk m c t) (cblk m c t) (sblk m c t) (outsAt0 (F := Ideal) m c (t.val - 1) (Nat.lt_of_le_of_lt (Nat.sub_le _ _) t.isLt)).2.1 := by
  by_cases h1 : t.val % 8 = 7
  · rw [outsAt0_C m c t h0 h1]
    dsimp only
    exact sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (cblk m c t) (sblk m c t) (ablk m c t) (bblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2
  · rw [outsAt0_B m c t h0 h1]
    dsimp only
    exact sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (cblk m c t) (sblk m c t) (ablk m c t) (bblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2

/-- At a later point of a row the second accumulator is the update of what the point before left in it. -/
theorem xa_next (c : Dev nD) (t : Fin cfg0.N) (h0 : ¬t.val % 8 = 0) :
    (outsAt0 (F := Ideal) m c t.val t.isLt).2.2
      = xaPart (F := Ideal) (xblk m c t) (ablk m c t) (outsAt0 (F := Ideal) m c (t.val - 1) (Nat.lt_of_le_of_lt (Nat.sub_le _ _) t.isLt)).2.2 := by
  by_cases h1 : t.val % 8 = 7
  · rw [outsAt0_C m c t h0 h1]
    dsimp only
    exact sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (cblk m c t) (sblk m c t) (ablk m c t) (bblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2
  · rw [outsAt0_B m c t h0 h1]
    dsimp only
    exact sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (cblk m c t) (sblk m c t) (ablk m c t) (bblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2

/-- At the last point of a row the output block is the base accumulator plus twice the adapter's contribution,
    both as that point leaves them. -/
theorem out_at_last (c : Dev nD) (t : Fin cfg0.N) (h1 : t.val % 8 = 7) :
    (outsAt0 (F := Ideal) m c t.val t.isLt).1
      = outFin (F := Ideal) (bblk m c t) (outsAt0 (F := Ideal) m c t.val t.isLt).2.2 (outsAt0 (F := Ideal) m c t.val t.isLt).2.1 := by
  have h0 : ¬t.val % 8 = 0 := by omega
  rw [base_next m c t h0, xa_next m c t h0, outsAt0_C m c t h0 h1]
  dsimp only
  exact out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (cblk m c t) (sblk m c t) (ablk m c t) (bblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2

/-! ## What a point adds, as a share of the specification's sums -/

/-- A point adds to the base accumulator at `(p, q)` the share of its block `k = t % 8`: the block's entries are
    the arrays' entries at rows `1024 i + p`, `1024 j + q` and columns `512 k + cc`, and the scale read is that of
    the block of 64 positions that `512 k + cc` lies in. -/
theorem base_step (c : Dev nD) (t : Fin cfg0.N) (acc : Vec Ideal S1024x1024 .f32) (p q : Fin 1024) :
    basePart (F := Ideal) (BitVec.ofNat 32 ((grid0.coords t) 2).val) (xblk m c t) (cblk m c t) (sblk m c t) acc (ix2 p q)
      = acc (ix2 p q) + Cert.Qlora.baseBlkT Cert.Qlora.lutK (fun d => xarr m c (ix2 ⟨1024 * (t.val / 32) + p.val, by have := t_lt t; have := p.isLt; omega⟩ d))
          (carr m c) (sarr m c) ⟨1024 * ((t.val / 8) % 4) + q.val, by have := q.isLt; omega⟩ (t.val % 8) := by
  have hk : t.val % 8 < 8 := Nat.mod_lt _ (by norm_num)
  rw [coord_k t]
  refine (basePart_apply ⟨t.val % 8, hk⟩ (xblk m c t) (cblk m c t) (sblk m c t) acc p q).trans ?_
  refine congrArg (acc (ix2 p q) + ·) ?_
  unfold Cert.Qlora.baseBlkT
  rw [dif_pos hk]
  unfold Cert.Qlora.baseBlk Cert.Qlora.dq
  refine Finset.sum_congr rfl fun cc _ => ?_
  rw [xblk_apply, cblk_apply, sblk_apply]

/-- A point adds to the second accumulator at `(p, r)` the share of its block of the row's inner product with
    row `r` of `A`. -/
theorem xa_step (c : Dev nD) (t : Fin cfg0.N) (acc : Vec Ideal S1024x16 .f32) (p : Fin 1024) (r : Fin 16) :
    xaPart (F := Ideal) (xblk m c t) (ablk m c t) acc (ix2 p r)
      = acc (ix2 p r) + Cert.Qlora.xaBlkT (fun d => xarr m c (ix2 ⟨1024 * (t.val / 32) + p.val, by have := t_lt t; have := p.isLt; omega⟩ d)) (aarr m c) r (t.val % 8) := by
  have hk : t.val % 8 < 8 := Nat.mod_lt _ (by norm_num)
  refine (xaPart_apply (xblk m c t) (ablk m c t) acc p r).trans ?_
  refine congrArg (acc (ix2 p r) + ·) ?_
  unfold Cert.Qlora.xaBlkT
  rw [dif_pos hk]
  unfold Cert.Qlora.xaBlk
  refine Finset.sum_congr rfl fun cc _ => ?_
  rw [xblk_apply, ablk_apply]

/-- The sums of shares depend only on the row, the output and the number of blocks. -/
theorem baseSum_congr (c : Dev nD) {a a' : Fin 8192} {o o' : Fin 4096} {j j' : ℕ} (ha : a = a') (ho : o = o') (hj : j = j') :
    ∑ k ∈ Finset.range j, Cert.Qlora.baseBlkT Cert.Qlora.lutK (fun d => xarr m c (ix2 a d)) (carr m c) (sarr m c) o k
      = ∑ k ∈ Finset.range j', Cert.Qlora.baseBlkT Cert.Qlora.lutK (fun d => xarr m c (ix2 a' d)) (carr m c) (sarr m c) o' k := by
  subst ha ho hj
  rfl

theorem xaSum_congr (c : Dev nD) (r : Fin 16) {a a' : Fin 8192} {j j' : ℕ} (ha : a = a') (hj : j = j') :
    ∑ k ∈ Finset.range j, Cert.Qlora.xaBlkT (fun d => xarr m c (ix2 a d)) (aarr m c) r k
      = ∑ k ∈ Finset.range j', Cert.Qlora.xaBlkT (fun d => xarr m c (ix2 a' d)) (aarr m c) r k := by
  subst ha hj
  rfl

/-! ## The induction -/

/-- Both accumulators after point `t`, by induction on the point: a first point of a row starts the sums at its
    own share; a later point `t` has the same `i = t / 32` and `j = (t / 8) % 4` as `t - 1` and the next `k`. -/
theorem inv_aux (c : Dev nD) (n : ℕ) : ∀ t : Fin cfg0.N, t.val = n →
    (∀ p q : Fin 1024, (outsAt0 (F := Ideal) m c t.val t.isLt).2.1 (ix2 p q)
      = ∑ k ∈ Finset.range (t.val % 8 + 1), Cert.Qlora.baseBlkT Cert.Qlora.lutK (fun d => xarr m c (ix2 ⟨1024 * (t.val / 32) + p.val, by have := t_lt t; have := p.isLt; omega⟩ d))
          (carr m c) (sarr m c) ⟨1024 * ((t.val / 8) % 4) + q.val, by have := q.isLt; omega⟩ k)
    ∧ (∀ (p : Fin 1024) (r : Fin 16), (outsAt0 (F := Ideal) m c t.val t.isLt).2.2 (ix2 p r)
      = ∑ k ∈ Finset.range (t.val % 8 + 1), Cert.Qlora.xaBlkT (fun d => xarr m c (ix2 ⟨1024 * (t.val / 32) + p.val, by have := t_lt t; have := p.isLt; omega⟩ d)) (aarr m c) r k) := by
  induction n using Nat.strong_induction_on with
  | _ n ih =>
    intro t ht
    have hN := t_lt t
    by_cases h0 : t.val % 8 = 0
    · refine ⟨fun p q => ?_, fun p r => ?_⟩
      · refine (congrFun (base_first m c t h0) (ix2 p q)).trans ?_
        refine (base_step m c t (k0_pay3 (F := Ideal)) p q).trans ?_
        rw [zero_base, Finset.sum_range_succ, h0, Finset.sum_range_zero]
      · refine (congrFun (xa_first m c t h0) (ix2 p r)).trans ?_
        refine (xa_step m c t (k0_pay4 (F := Ideal)) p r).trans ?_
        rw [zero_xa, Finset.sum_range_succ, h0, Finset.sum_range_zero]
    · obtain ⟨ihb, iha⟩ := ih (t.val - 1) (by omega) ⟨t.val - 1, Nat.lt_of_le_of_lt (Nat.sub_le _ _) t.isLt⟩ rfl
      refine ⟨fun p q => ?_, fun p r => ?_⟩
      · refine (congrFun (base_next m c t h0) (ix2 p q)).trans ?_
        refine (base_step m c t (outsAt0 (F := Ideal) m c (t.val - 1) (Nat.lt_of_le_of_lt (Nat.sub_le _ _) t.isLt)).2.1 p q).trans ?_
        rw [Finset.sum_range_succ]
        refine congrArg (· + _) ?_
        refine (ihb p q).trans ?_
        exact baseSum_congr m c
          (Fin.ext (by show 1024 * ((t.val - 1) / 32) + p.val = 1024 * (t.val / 32) + p.val; omega))
          (Fin.ext (by show 1024 * (((t.val - 1) / 8) % 4) + q.val = 1024 * ((t.val / 8) % 4) + q.val; omega))
          (by show (t.val - 1) % 8 + 1 = t.val % 8; omega)
      · refine (congrFun (xa_next m c t h0) (ix2 p r)).trans ?_
        refine (xa_step m c t (outsAt0 (F := Ideal) m c (t.val - 1) (Nat.lt_of_le_of_lt (Nat.sub_le _ _) t.isLt)).2.2 p r).trans ?_
        rw [Finset.sum_range_succ]
        refine congrArg (· + _) ?_
        refine (iha p r).trans ?_
        exact xaSum_congr m c r
          (Fin.ext (by show 1024 * ((t.val - 1) / 32) + p.val = 1024 * (t.val / 32) + p.val; omega))
          (by show (t.val - 1) % 8 + 1 = t.val % 8; omega)

/-- The base accumulator after point `t`. -/
theorem base_inv (c : Dev nD) (t : Fin cfg0.N) (p q : Fin 1024) :
    (outsAt0 (F := Ideal) m c t.val t.isLt).2.1 (ix2 p q)
      = ∑ k ∈ Finset.range (t.val % 8 + 1), Cert.Qlora.baseBlkT Cert.Qlora.lutK (fun d => xarr m c (ix2 ⟨1024 * (t.val / 32) + p.val, by have := t_lt t; have := p.isLt; omega⟩ d))
          (carr m c) (sarr m c) ⟨1024 * ((t.val / 8) % 4) + q.val, by have := q.isLt; omega⟩ k :=
  (inv_aux m c t.val t rfl).1 p q

/-- The second accumulator after point `t`. -/
theorem xa_inv (c : Dev nD) (t : Fin cfg0.N) (p : Fin 1024) (r : Fin 16) :
    (outsAt0 (F := Ideal) m c t.val t.isLt).2.2 (ix2 p r)
      = ∑ k ∈ Finset.range (t.val % 8 + 1), Cert.Qlora.xaBlkT (fun d => xarr m c (ix2 ⟨1024 * (t.val / 32) + p.val, by have := t_lt t; have := p.isLt; omega⟩ d)) (aarr m c) r k :=
  (inv_aux m c t.val t rfl).2 p r

/-- The output block after the last point of a row of points. -/
theorem out_last (c : Dev nD) (t : Fin cfg0.N) (h7 : t.val % 8 = 7) (p q : Fin 1024) :
    (outsAt0 (F := Ideal) m c t.val t.isLt).1 (ix2 p q)
      = Cert.Qlora.out2 Cert.Qlora.lutK (xarr m c) (carr m c) (sarr m c) (aarr m c) (barr m c)
          (ix2 ⟨1024 * (t.val / 32) + p.val, by have := t_lt t; have := p.isLt; omega⟩ ⟨1024 * ((t.val / 8) % 4) + q.val, by have := q.isLt; omega⟩) := by
  refine (congrFun (out_at_last m c t h7) (ix2 p q)).trans ?_
  refine (outFin_apply (bblk m c t) (outsAt0 (F := Ideal) m c t.val t.isLt).2.2 (outsAt0 (F := Ideal) m c t.val t.isLt).2.1 p q).trans ?_
  have hb := base_inv m c t p q
  have ha : ∀ r : Fin 16, (outsAt0 (F := Ideal) m c t.val t.isLt).2.2 (ix2 p r) * bblk m c t (ix2 q r)
      = (∑ k ∈ Finset.range 8, Cert.Qlora.xaBlkT (fun d => xarr m c (ix2 ⟨1024 * (t.val / 32) + p.val, by have := t_lt t; have := p.isLt; omega⟩ d)) (aarr m c) r k)
          * barr m c (ix2 ⟨1024 * ((t.val / 8) % 4) + q.val, by have := q.isLt; omega⟩ r) := fun r => by
    rw [xa_inv m c t p r, bblk_apply m c t q r, h7]
  rw [h7] at hb
  rw [hb, Finset.sum_congr rfl fun r _ => ha r]
  exact Cert.Qlora.outAt_of_blocks Cert.Qlora.lutK (fun d => xarr m c (ix2 ⟨1024 * (t.val / 32) + p.val, by have := t_lt t; have := p.isLt; omega⟩ d)) (carr m c) (sarr m c) (aarr m c) (barr m c) ⟨1024 * ((t.val / 8) % 4) + q.val, by have := q.isLt; omega⟩

end Cert.KernelIdeal.Induct

end
-- ==== Proof.KerFinal.lean ====
/-
  From the points to the program's result. The output window flushes at the last point of each row of points, and
  the 32 blocks so written tile the 8192-by-4096 output: entry `(r, o)` lies in the block of `i = r / 1024`,
  `j = o / 1024`. So after the region the output array is the layer's result as a matrix; the program's last
  operation lays it out as 4 by 2048 by 4096, and its first laid the input out as 8192 rows, so the result is the
  layer's result of the arguments.
-/
import proofs.«415451_j84851373900522_1_alg».proof.Proof.KerInduct
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem Cert.KernelIdeal Cert.KernelIdeal.Gen
  Cert.KernelIdeal.Blocks Cert.KernelIdeal.Induct
open Idealize.ShloMosaic.Pipeline (Dat)

section Region

variable (m : (ℓ : Loc nD τ sig) → Buf (Elt Ideal) ℓ)

/-- The layer's result as a matrix, of the arrays as the region finds them. -/
abbrev G2 (c : Dev nD) : Vec Ideal S8192x4096 .f32 :=
  Cert.Qlora.out2 Cert.Qlora.lutK (xarr m c) (carr m c) (sarr m c) (aarr m c) (barr m c)

/-- The output window's block at point `t = (i, j, k)` is block `(i, j)`. -/
theorem out_index : ∀ t : Fin cfg0.N, win0_5.index t (0 : Fin 2) = t.val / 32 ∧ win0_5.index t (1 : Fin 2) = (t.val / 8) % 4 :=
  (by decide +kernel : ∀ t : Fin grid0.N, _)

/-- What the last point of a row of points writes back is block `(i, j)` of the layer's result. -/
theorem flushed_eq (c : Dev nD) (t : Fin cfg0.N) (hf : (cfg0.win 5).flush t = true) :
    (dats (F := Ideal) m 0 c).flushed 5 t = ((cfg0.win 5).blk t).view.read (Elt Ideal) (G2 m c) := by
  have h7 : t.val % 8 = 7 := (flush0_5 t).mp hf
  obtain ⟨e0, e1⟩ := out_index t
  show (cfg0.win 5).cut (grid0.coords t) ((dats m 0 c).after 5 t) = _
  rw [after0_5]
  funext y
  obtain ⟨p, q, rfl⟩ : ∃ (p q : Fin 1024), y = ix2 p q := ⟨y 0, y 1, eq_ix2 (n0 := 1024) (n1 := 1024) y⟩
  show (outsAt0 (F := Ideal) m c t.val t.isLt).1 (ix2 p q) = G2 m c (((cfg0.win 5).blk t).view.emb (ix2 p q))
  refine (out_last m c t h7 p q).trans (congrArg (G2 m c) ?_)
  funext a; apply Fin.ext
  match a with
  | ⟨0, _⟩ => show 1024 * (t.val / 32) + p.val = win0_5.index t (0 : Fin 2) * 1024 + 1 * p.val; omega
  | ⟨1, _⟩ => show 1024 * ((t.val / 8) % 4) + q.val = win0_5.index t (1 : Fin 2) * 1024 + 1 * q.val; omega

/-- An index of the output array is in point `t`'s block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v1).slice (win0_5.rect t)).set ↔ _
  rw [View.set_slice_whole, Rect.mem_set_unit]
  exact Iff.rfl

/-- Entry `(r, o)` lies in the block written back at the last point of row `(r / 1024, o / 1024)` of points. -/
theorem cover (i : S8192x4096.Idx) :
    ∃ t : Fin cfg0.N, (cfg0.win 5).flush t = true ∧ i ∈ ((cfg0.win 5).blk t).view.set := by
  have hr : (i 0).val < 8192 := (i 0).isLt
  have ho : (i 1).val < 4096 := (i 1).isLt
  obtain ⟨t, ht⟩ : ∃ t : Fin cfg0.N, t.val = 32 * ((i 0).val / 1024) + 8 * ((i 1).val / 1024) + 7 :=
    ⟨⟨32 * ((i 0).val / 1024) + 8 * ((i 1).val / 1024) + 7, lt_of_lt_of_eq (by omega) N_0.symm⟩, rfl⟩
  obtain ⟨e0, e1⟩ := out_index t
  refine ⟨t, (flush0_5 t).mpr (by omega), ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The output array after the region is the layer's result as a matrix. -/
theorem final (c : Dev nD) : (dats (F := Ideal) m 0 c).arrAt 5 cfg0.N = G2 m c :=
  (dats m 0 c).arrAt_eq_of_cover 5 (G2 m c) (fun t hf => flushed_eq m c t hf) cover

end Region

section Host

variable (m : (ℓ : Loc nD τ sig) → Buf (Elt Ideal) ℓ)

/-- The region finds the input laid out as 8192 rows. -/
theorem xarr_eq (c : Dev nD) :
    xarr m c = shapeCast S8192x4096 (m ((c.tc : Thread nD τ).loc main_arg0)) shapeCasts_S4x2048x4096_S8192x4096 := by
  show StableHlo.after (List.flatten [hostOps0]) (fun b => m (c, b)) (Proc.devRef .tc main_v0) = _
  simp only [List.flatten_cons, List.flatten_nil, List.append_nil]
  after_results
  rfl

/-- Row `2048 b + s` of the flattened input is row `(b, s)` of the input. -/
theorem xarr_apply (c : Dev nD) (b : Fin 4) (s : Fin 2048) (d : Fin 4096) :
    xarr m c (ix2 ⟨2048 * b.val + s.val, by have := b.isLt; have := s.isLt; omega⟩ d)
      = m ((c.tc : Thread nD τ).loc main_arg0) (ix3 b s d) := by
  refine (congrFun (xarr_eq m c) _).trans ?_
  refine shapeCast_apply _ _ _ (ix3 b s d) ?_
  rw [Shape.rowMajor_val_three, Shape.rowMajor_val_two]
  show (b.val * 2048 + s.val) * 4096 + d.val = (2048 * b.val + s.val) * 4096 + d.val
  omega

/-- The region finds the codes, the scales, `A` and `B` as launched. -/
theorem carr_eq (c : Dev nD) : carr m c = m ((c.tc : Thread nD τ).loc main_arg1) := V_main_arg1 m c
theorem sarr_eq (c : Dev nD) : sarr m c = m ((c.tc : Thread nD τ).loc main_arg2) := V_main_arg2 m c
theorem aarr_eq (c : Dev nD) : aarr m c = m ((c.tc : Thread nD τ).loc main_arg3) := V_main_arg3 m c
theorem barr_eq (c : Dev nD) : barr m c = m ((c.tc : Thread nD τ).loc main_arg4) := V_main_arg4 m c

/-- The program's result is the output array after the region, laid out as 4 by 2048 by 4096. -/
theorem tail_v2 (c : Dev nD) :
    Pipeline.afterTail₀ cfgs (dats (F := Ideal) m) 0 (V0 m) [hostOps1] c main_v2
      = shapeCast S4x2048x4096 (G2 m c) shapeCasts_S8192x4096_S4x2048x4096 := by
  unfold Pipeline.afterTail₀
  show StableHlo.after hostOps1 _ (Proc.devRef .tc main_v2) = _
  after_results
  exact congrArg (fun x => shapeCast S4x2048x4096 x shapeCasts_S8192x4096_S4x2048x4096)
    ((Pipeline.withArrays_arr spec0 launch0.win.arr_inj c _ _ 5).trans (final m c))

/-- Entry `(b, s, o)` of that layout is entry `(2048 b + s, o)` of the matrix, whose row `2048 b + s` of the
    flattened input is row `(b, s)` of the input: the layer's result of the arguments. -/
theorem result_eq (c : Dev nD) :
    shapeCast S4x2048x4096 (G2 m c) shapeCasts_S8192x4096_S4x2048x4096
      = Cert.Qlora.out3 Cert.Qlora.lutK (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext j
  obtain ⟨b, s, o, rfl⟩ : ∃ (b : Fin 4) (s : Fin 2048) (o : Fin 4096), j = ix3 b s o := ⟨j 0, j 1, j 2, eq_ix3 j⟩
  have hb := b.isLt
  have hs := s.isLt
  have hrow : (fun d => xarr m c (ix2 ⟨2048 * b.val + s.val, by omega⟩ d))
      = fun d => m ((c.tc : Thread nD τ).loc main_arg0) (ix3 b s d) := funext fun d => xarr_apply m c b s d
  refine (shapeCast_apply (G2 m c) _ (ix3 b s o) (ix2 ⟨2048 * b.val + s.val, by omega⟩ o) ?_).trans ?_
  · rw [Shape.rowMajor_val_two, Shape.rowMajor_val_three]
    show (2048 * b.val + s.val) * 4096 + o.val = (b.val * 2048 + s.val) * 4096 + o.val
    omega
  · show Cert.Qlora.outAt Cert.Qlora.lutK (fun d => xarr m c (ix2 ⟨2048 * b.val + s.val, by omega⟩ d)) (carr m c) (sarr m c) (aarr m c) (barr m c) o
        = Cert.Qlora.outAt Cert.Qlora.lutK (fun d => m ((c.tc : Thread nD τ).loc main_arg0) (ix3 b s d)) (m ((c.tc : Thread nD τ).loc main_arg1))
            (m ((c.tc : Thread nD τ).loc main_arg2)) (m ((c.tc : Thread nD τ).loc main_arg3)) (m ((c.tc : Thread nD τ).loc main_arg4)) o
    rw [hrow, carr_eq m c, sarr_eq m c, aarr_eq m c, barr_eq m c]

end Host

/-- Every weakly fair execution of the kernel's program terminates with its result at the layer's specification (with
    the lookup by comparisons) of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2)
          = Cert.Qlora.out3 Cert.Qlora.lutK (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun r h c =>
    ⟨((h c).2 main_v2 (Pipeline.mem_restRefs_of main_v2 (by decide) (by decide))).trans ((tail_v2 m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Final

end
-- ==== Proof.RefTerm.lean ====
/-
  The reference's result as one term of its five arguments. The codes are wrapped (a negative one counts from the
  end of the codebook), the codebook is indexed by them, the levels are laid out as 64 blocks of 64 per output row
  and multiplied by the block's scale, and laid out flat again: that is the weight matrix. The result is the input's
  product with it, plus the input's product with `A` and then with `B`, times two.
-/
import proofs.«415451_j84851373900522_1_alg».proof.Proof.Gen.ReferenceIdeal

noncomputable section

namespace Cert.ReferenceIdeal.RefValue

open Cert.ReferenceIdeal Cert.ReferenceIdeal.Facts₀ Idealize.ShloMosaic Idealize.ShloMosaic.TcCoe

variable {F : FTy → Type} [FloatOps F]

/-- The sixteen levels as an array. -/
def codebook : FVec F S16 .f32 := fun i => FloatOps.ofBits .f32 (lit0 (S16.rowMajor i))

/-- A negative code counts from the end: sixteen is added to it. -/
def wrapped (codes : IVec S4096x4096 32) : IVec S4096x4096 32 :=
  select (cmpi .slt codes (broadcastInDim S4096x4096 ![] bcast_S_S4096x4096 (constantI S_ 32 0#32)))
    (addi codes (broadcastInDim S4096x4096 ![] bcast_S_S4096x4096 (constantI S_ 32 16#32))) codes

/-- The level of every code. -/
def levels (codes : IVec S4096x4096 32) : FVec F S4096x4096 .f32 :=
  Host.gather gather_S16_S4096x4096x1_S4096x4096_n_0_n_n_0_2_1 (codebook (F := F))
    (broadcastInDim S4096x4096x1 ![0, 1] bcast_S4096x4096_S4096x4096x1_0_1 (wrapped codes))

/-- The weight matrix: each level times the scale of its block of 64. -/
def weights (codes : IVec S4096x4096 32) (scales : FVec F S4096x64 .f32) : FVec F S4096x4096 .f32 :=
  shapeCast S4096x4096
    (mulf (shapeCast S4096x64x64 (levels (F := F) codes) shapeCasts_S4096x4096_S4096x64x64)
      (broadcastInDim S4096x64x64 ![0, 1, 2] bcast_S4096x64x1_S4096x64x64_0_1_2
        (broadcastInDim S4096x64x1 ![0, 1] bcast_S4096x64_S4096x64x1_0_1 scales)))
    shapeCasts_S4096x64x64_S4096x4096

/-- The whole result. -/
def refTerm (x : FVec F S4x2048x4096 .f32) (codes : IVec S4096x4096 32) (scales : FVec F S4096x64 .f32)
    (A : FVec F S16x4096 .f32) (B : FVec F S4096x16 .f32) : FVec F S4x2048x4096 .f32 :=
  addf (Host.dotGeneral dot_S4x2048x4096_S4096x4096_S4x2048x4096_2_1_01_0_n_n none x (weights codes scales))
    (mulf (Host.dotGeneral dot_S4x2048x16_S4096x16_S4x2048x4096_2_1_01_0_n_n none
        (Host.dotGeneral dot_S4x2048x4096_S16x4096_S4x2048x16_2_1_01_0_n_n none x A) B)
      (broadcastInDim S4x2048x4096 ![] bcast_S_S4x2048x4096 (constant S_ .f32 0x40000000#32)))

end Cert.ReferenceIdeal.RefValue

end
-- ==== Proof.RefRun.lean ====
/-
  The reference's program is a list of host operations, each writing one fresh array from arrays written before
  it. Run in order from any memory, they end with the result array holding the composed term of the five
  arguments, and the arguments as they were.
-/
import proofs.«415451_j84851373900522_1_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- The reference's 22 operations, in order. -/
abbrev ops : List (HloOp τ sig (Elt F)) :=
  [ nullary main_cst (fun i => FloatOps.ofBits .f32 (lit0 (S16.rowMajor i))),
    nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg1 main_v0 main_v1 (cmpi .slt : (⟨S4096x4096, .i32⟩ : BufTy).Contents (Elt F) → (⟨S4096x4096, .i32⟩ : BufTy).Contents (Elt F) → (⟨S4096x4096, .i1⟩ : BufTy).Contents (Elt F)),
    nullary main_c_0 (constantI S_ 32 16#32),
    unary main_c_0 main_v2 (broadcastInDim S4096x4096 ![] bcast_S_S4096x4096 : (⟨S_, .i32⟩ : BufTy).Contents (Elt F) → (⟨S4096x4096, .i32⟩ : BufTy).Contents (Elt F)),
    binary main_arg1 main_v2 main_v3 (addi : (⟨S4096x4096, .i32⟩ : BufTy).Contents (Elt F) → (⟨S4096x4096, .i32⟩ : BufTy).Contents (Elt F) → (⟨S4096x4096, .i32⟩ : BufTy).Contents (Elt F)),
    ternary main_v1 main_v3 main_arg1 main_v4 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v4 main_v5 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v5 main_v6 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v6 main_v7 rfl shapeCasts_S4096x4096_S4096x64x64,
    unary main_arg2 main_v8 (broadcastInDim S4096x64x1 ![0, 1] bcast_S4096x64_S4096x64x1_0_1 : (⟨S4096x64, .f32⟩ : BufTy).Contents (Elt F) → (⟨S4096x64x1, .f32⟩ : BufTy).Contents (Elt F)),
    unary main_v8 main_v9 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v7 main_v9 main_v10 (mulf : (⟨S4096x64x64, .f32⟩ : BufTy).Contents (Elt F) → (⟨S4096x64x64, .f32⟩ : BufTy).Contents (Elt F) → (⟨S4096x64x64, .f32⟩ : BufTy).Contents (Elt F)),
    reshape main_v10 main_v11 rfl shapeCasts_S4096x64x64_S4096x4096,
    binary main_arg0 main_v11 main_v12 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    binary main_arg0 main_arg3 main_v13 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    binary main_v13 main_arg4 main_v14 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    nullary main_cst_1 (constant S_ .f32 0x40000000#32),
    unary main_cst_1 main_v15 (broadcastInDim S4x2048x4096 ![] bcast_S_S4x2048x4096 : (⟨S_, .f32⟩ : BufTy).Contents (Elt F) → (⟨S4x2048x4096, .f32⟩ : BufTy).Contents (Elt F)),
    binary main_v14 main_v15 main_v16 (mulf : (⟨S4x2048x4096, .f32⟩ : BufTy).Contents (Elt F) → (⟨S4x2048x4096, .f32⟩ : BufTy).Contents (Elt F) → (⟨S4x2048x4096, .f32⟩ : BufTy).Contents (Elt F)),
    binary main_v12 main_v16 main_v17 (addf : (⟨S4x2048x4096, .f32⟩ : BufTy).Contents (Elt F) → (⟨S4x2048x4096, .f32⟩ : BufTy).Contents (Elt F) → (⟨S4x2048x4096, .f32⟩ : BufTy).Contents (Elt F)) ]

/-- The program is its operations run in order. -/
theorem main_eq (c : Dev nD) : main (F := F) c = seq ops := rfl

/-- No array of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- Every operation touches arrays of the one core only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    unary_bufs_sub .., binary_bufs_sub .., reshape_bufs_sub .., binary_bufs_sub .., binary_bufs_sub .., binary_bufs_sub ..,
    nullary_bufs_sub .., unary_bufs_sub .., binary_bufs_sub .., binary_bufs_sub ..⟩

/-- The result array after the operations, from any contents: the composed term of the five arguments. -/
theorem after_result (V : Valuation τ sig (Elt F)) :
    after ops V (Proc.devRef .tc main_v17)
      = refTerm (F := F) (V (Proc.devRef .tc main_arg0)) (V (Proc.devRef .tc main_arg1)) (V (Proc.devRef .tc main_arg2))
          (V (Proc.devRef .tc main_arg3)) (V (Proc.devRef .tc main_arg4)) := by
  after_results_simp
  rfl

/-- No operation writes the first argument. -/
theorem after_arg0 (V : Valuation τ sig (Elt F)) : after ops V (Proc.devRef .tc main_arg0) = V (Proc.devRef .tc main_arg0) := by
  after_results_simp

/-- No operation writes the second argument. -/
theorem after_arg1 (V : Valuation τ sig (Elt F)) : after ops V (Proc.devRef .tc main_arg1) = V (Proc.devRef .tc main_arg1) := by
  after_results_simp

/-- No operation writes the third argument. -/
theorem after_arg2 (V : Valuation τ sig (Elt F)) : after ops V (Proc.devRef .tc main_arg2) = V (Proc.devRef .tc main_arg2) := by
  after_results_simp

/-- No operation writes the fourth argument. -/
theorem after_arg3 (V : Valuation τ sig (Elt F)) : after ops V (Proc.devRef .tc main_arg3) = V (Proc.devRef .tc main_arg3) := by
  after_results_simp

/-- No operation writes the fifth argument. -/
theorem after_arg4 (V : Valuation τ sig (Elt F)) : after ops V (Proc.devRef .tc main_arg4) = V (Proc.devRef .tc main_arg4) := by
  after_results_simp

/-- Every weakly fair execution of the reference terminates with its result at the composed term of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = refTerm (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (after_result _),
      (h c main_arg0).trans (after_arg0 _),
      (h c main_arg1).trans (after_arg1 _),
      (h c main_arg2).trans (after_arg2 _),
      (h c main_arg3).trans (after_arg3 _),
      (h c main_arg4).trans (after_arg4 _)⟩)
    (run_seq scopedRefs_eq scopedSems_eq defs main (fun _ => ops) main_eq (fun _ => ops_sub) m ρ)

end Cert.ReferenceIdeal.RefValue

end
-- ==== Proof.RefRead.lean ====
/-
  The reference's term, read entry by entry on the extended reals, is the layer's specification with the lookup
  by indexing: each product with a matrix is a sum over the contracted position, the weight at `(o, d)` is the
  level of the wrapped, clamped code times the scale of block `d / 64` (position `d` is entry `d % 64` of block
  `d / 64` in the 64-by-64 layout of a row), and the factor two multiplies the adapter's part.
-/
import proofs.«415451_j84851373900522_1_alg».proof.Proof.RefTerm
import proofs.«415451_j84851373900522_1_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Facts₀ Idealize.ShloMosaic Idealize.ShloMosaic.TcCoe Idealize.ShloMosaic.ValueIdx

/-! ## A batch of rows times rows, read at an element

For the dimension numbers of `[P, Q, K]` by `[N, K]` — the left operand's axis 2 contracted with the right
operand's axis 1, the left operand's axes 0 and 1 and the right operand's axis 0 the result's axes, no batch axes —
the operand indices at output element `(a, b, c)` and contraction coordinate `k` are `(a, b, k)` and `(c, k)`. -/

/-- The dimension numbers of `[P, Q, K] × [N, K] → [P, Q, N]`. At a printed record every field is `rfl`. -/
structure Rows3Dot {P Q K N : Nat} (d : DotDims ⟨3, ![P, Q, K]⟩ ⟨2, ![N, K]⟩ ⟨3, ![P, Q, N]⟩) : Prop where
  lc : d.lhsContracting = [2]
  rc : d.rhsContracting = [1]
  ln : d.lhsNonContracting = [0, 1]
  rn : d.rhsNonContracting = [0]
  lb : d.lhsBatch = []
  rb : d.rhsBatch = []

section Rows3
variable {P Q K N : Nat} {d : DotDims ⟨3, ![P, Q, K]⟩ ⟨2, ![N, K]⟩ ⟨3, ![P, Q, N]⟩}

/-- One axis is contracted. -/
theorem Rows3Dot.rank_contr (hd : Rows3Dot d) : d.contr.rank = 1 := by
  rw [d.rank_contr, hd.lc]; rfl

/-- The contracted axis has extent `K`. -/
theorem Rows3Dot.size_contr (hd : Rows3Dot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's first coordinate is the output's first. -/
theorem Rows3Dot.lhs0 (hd : Rows3Dot d) (i : (⟨3, ![P, Q, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's second coordinate is the output's second. -/
theorem Rows3Dot.lhs1 (hd : Rows3Dot d) (i : (⟨3, ![P, Q, N]⟩ : Shape).Idx) (q : d.contr.Idx) :
    (d.lhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's third coordinate is the contraction coordinate. -/
theorem Rows3Dot.lhs2 (hd : Rows3Dot d) (i : (⟨3, ![P, Q, N]⟩ : Shape).Idx) (q : d.contr.Idx) :
    (d.lhsIdx i q 2).val = (q ⟨0, by rw [hd.rank_contr]; exact Nat.one_pos⟩).val :=
  d.lhsIdx_val_of_single hd.lc i q

/-- The right operand's row is the output's third coordinate. -/
theorem Rows3Dot.rhs0 (hd : Rows3Dot d) (i : (⟨3, ![P, Q, N]⟩ : Shape).Idx) (q : d.contr.Idx) :
    (d.rhsIdx i q 0).val = (i 2).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The right operand's column is the contraction coordinate. -/
theorem Rows3Dot.rhs1 (hd : Rows3Dot d) (i : (⟨3, ![P, Q, N]⟩ : Shape).Idx) (q : d.contr.Idx) :
    (d.rhsIdx i q 1).val = (q ⟨0, by rw [hd.rank_contr]; exact Nat.one_pos⟩).val :=
  d.rhsIdx_val_of_single hd.rc i q

/-- The contraction re-indexed by the contracted coordinate: at output element `(a, b, c)` it is the inner product
    of row `(a, b)` of the left operand and row `c` of the right one. -/
theorem Rows3Dot.sum_contr (hd : Rows3Dot d) (lhs : (⟨3, ![P, Q, K]⟩ : Shape).Idx → EReal)
    (rhs : (⟨2, ![N, K]⟩ : Shape).Idx → EReal) (a : Fin P) (b : Fin Q) (c : Fin N) :
    ∑ q : d.contr.Idx, lhs (d.lhsIdx (ix3 a b c) q) * rhs (d.rhsIdx (ix3 a b c) q)
      = ∑ k : Fin K, lhs (ix3 a b k) * rhs (ix2 c k) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix3 a b c) ((contrEquiv1 d K hd.rank_contr hd.size_contr).symm k) = ix3 a b k :=
    funext fun x => Fin.ext (by
      match x with
      | ⟨0, _⟩ => exact hd.lhs0 _ _
      | ⟨1, _⟩ => exact hd.lhs1 _ _
      | ⟨2, _⟩ => exact (hd.lhs2 _ _).trans hk)
  have er : d.rhsIdx (ix3 a b c) ((contrEquiv1 d K hd.rank_contr hd.size_contr).symm k) = ix2 c k :=
    funext fun x => Fin.ext (by
      match x with
      | ⟨0, _⟩ => exact hd.rhs0 _ _
      | ⟨1, _⟩ => exact (hd.rhs1 _ _).trans hk)
  rw [el, er]

/-- The host's product at element `(a, b, c)`: that inner product. -/
theorem Rows3Dot.dotGeneral_apply (hd : Rows3Dot d) {φ₁ φ₂ : FTy} (prec : Option ContractPrecision)
    (lhs : FVec Ideal ⟨3, ![P, Q, K]⟩ φ₁) (rhs : FVec Ideal ⟨2, ![N, K]⟩ φ₂) (a : Fin P) (b : Fin Q) (c : Fin N) :
    Host.dotGeneral d prec lhs rhs (ix3 a b c) = ∑ k : Fin K, lhs (ix3 a b k) * rhs (ix2 c k) :=
  (Ideal.dotGeneral_apply d prec .single lhs rhs (ix3 a b c)).trans (hd.sum_contr lhs rhs a b c)

end Rows3

/-! ## The weight matrix at an entry -/

/-- The reference's literal table is the codebook of the specification. -/
theorem lit0_eq_nf4 : (lit0 : Fin 16 → BitVec 32) = Cert.Qlora.nf4 := by
  funext n; fin_cases n <;> rfl

/-- The codebook array at a position is that level. -/
theorem codebook_apply (n : Fin 16) : codebook (F := Ideal) (ix1 n) = Cert.Qlora.level n := by
  have hn : S16.rowMajor (ix1 n) = n := Fin.ext (by rw [Shape.rowMajor_val_one])
  unfold codebook Cert.Qlora.level
  rw [hn, lit0_eq_nf4]
  rfl

/-- The wrapped codes at an entry: sixteen added to a negative code. -/
theorem wrapped_apply (codes : IVec S4096x4096 32) (i : S4096x4096.Idx) :
    wrapped codes i = Cert.Qlora.wrapW (codes i) := rfl

/-- The level array at `(o, d)`: the level of the wrapped code, read signed and clamped into the table. -/
theorem levels_apply (codes : IVec S4096x4096 32) (o d : Fin 4096) :
    levels (F := Ideal) codes (ix2 o d) = Cert.Qlora.lutR (codes (ix2 o d)) := by
  have hidx : broadcastInDim S4096x4096x1 ![0, 1] bcast_S4096x4096_S4096x4096x1_0_1 (wrapped codes) (takeIdx (ix2 o d))
      = Cert.Qlora.wrapW (codes (ix2 o d)) :=
    (broadcastInDim_apply _ _ (wrapped codes) _ (ix2 o d) fun a => match a with | ⟨0, _⟩ => rfl | ⟨1, _⟩ => rfl).trans
      (wrapped_apply codes _)
  unfold levels
  refine (gather_take_apply (N := 16) (R := 4096) (C := 4096) (by decide)
    gather_S16_S4096x4096x1_S4096x4096_n_0_n_n_0_2_1_wf (codebook (F := Ideal)) _ (ix2 o d)).trans ?_
  rw [codebook_apply]
  exact congrArg Cert.Qlora.level (Fin.ext (congrArg (fun w : BitVec 32 => min w.toInt.toNat 15) hidx))

/-- The weight at `(o, d)`: position `d` of row `o` is entry `d % 64` of block `d / 64`, so the weight is the
    code's level times the scale of block `d / 64`. -/
theorem weights_apply (codes : IVec S4096x4096 32) (scales : FVec Ideal S4096x64 .f32) (o d : Fin 4096) :
    weights (F := Ideal) codes scales (ix2 o d) = Cert.Qlora.dq Cert.Qlora.lutR codes scales o d := by
  have hq : d.val / 64 < 64 := by have := d.isLt; omega
  have hr : d.val % 64 < 64 := Nat.mod_lt _ (by decide)
  have hlev : shapeCast S4096x64x64 (levels (F := Ideal) codes) shapeCasts_S4096x4096_S4096x64x64
      (ix3 o ⟨d.val / 64, hq⟩ ⟨d.val % 64, hr⟩) = Cert.Qlora.lutR (codes (ix2 o d)) := by
    refine (shapeCast_apply _ shapeCasts_S4096x4096_S4096x64x64 _ (ix2 o d) ?_).trans (levels_apply codes o d)
    rw [Shape.rowMajor_val_three, Shape.rowMajor_val_two]
    show o.val * 4096 + d.val = (o.val * 64 + d.val / 64) * 64 + d.val % 64
    omega
  have hsc : broadcastInDim S4096x64x64 ![0, 1, 2] bcast_S4096x64x1_S4096x64x64_0_1_2
      (broadcastInDim S4096x64x1 ![0, 1] bcast_S4096x64_S4096x64x1_0_1 scales)
      (ix3 o ⟨d.val / 64, hq⟩ ⟨d.val % 64, hr⟩) = scales (ix2 o ⟨d.val / 64, hq⟩) := by
    refine (broadcastInDim_apply _ _ _ _ (ix3 o ⟨d.val / 64, hq⟩ (0 : Fin 1))
      fun a => match a with | ⟨0, _⟩ => rfl | ⟨1, _⟩ => rfl | ⟨2, _⟩ => rfl).trans ?_
    exact broadcastInDim_apply _ _ scales _ (ix2 o ⟨d.val / 64, hq⟩)
      fun a => match a with | ⟨0, _⟩ => rfl | ⟨1, _⟩ => rfl
  unfold weights
  refine (shapeCast_apply _ shapeCasts_S4096x64x64_S4096x4096 (ix2 o d) (ix3 o ⟨d.val / 64, hq⟩ ⟨d.val % 64, hr⟩) ?_).trans ?_
  · rw [Shape.rowMajor_val_three, Shape.rowMajor_val_two]
    show (o.val * 64 + d.val / 64) * 64 + d.val % 64 = o.val * 4096 + d.val
    omega
  rw [mulf_apply, hlev, hsc]
  rfl

/-! ## The whole term at an entry -/

/-- The three products' dimension numbers are rows times rows. -/
theorem rows3_base : Rows3Dot dot_S4x2048x4096_S4096x4096_S4x2048x4096_2_1_01_0_n_n := ⟨rfl, rfl, rfl, rfl, rfl, rfl⟩
theorem rows3_xa : Rows3Dot dot_S4x2048x4096_S16x4096_S4x2048x16_2_1_01_0_n_n := ⟨rfl, rfl, rfl, rfl, rfl, rfl⟩
theorem rows3_b : Rows3Dot dot_S4x2048x16_S4096x16_S4x2048x4096_2_1_01_0_n_n := ⟨rfl, rfl, rfl, rfl, rfl, rfl⟩

/-- The reference's term is the specification with the lookup by indexing. -/
theorem refTerm_eq (x : FVec Ideal S4x2048x4096 .f32) (codes : IVec S4096x4096 32) (scales : FVec Ideal S4096x64 .f32)
    (A : FVec Ideal S16x4096 .f32) (B : FVec Ideal S4096x16 .f32) :
    refTerm (F := Ideal) x codes scales A B = Cert.Qlora.out3 Cert.Qlora.lutR x codes scales A B := by
  funext j
  obtain ⟨a, b, c, rfl⟩ : ∃ (a : Fin 4) (b : Fin 2048) (c : Fin 4096), j = ix3 a b c := ⟨j 0, j 1, j 2, eq_ix3 j⟩
  unfold refTerm
  refine (addf_apply _ _ _).trans ?_
  rw [mulf_apply, rows3_base.dotGeneral_apply, rows3_b.dotGeneral_apply]
  simp only [weights_apply, rows3_xa.dotGeneral_apply]
  rfl

end Cert.ReferenceIdeal.RefValue

end
-- ==== Proof.PreDecode.lean ====
/-
  What the precondition says of the codes: its last conjunct is that every code is at least zero and below
  sixteen, as signed words. On such a word the lookup by fifteen comparisons and the lookup by indexing agree:
  the word is one of 0 … 15, wrapping leaves it alone and clamping too.
-/
import Idealize.ShloMosaic.Lib.ReduceAll
import proofs.«415451_j84851373900522_1_alg».proof.Proof.Gen.Pre_finite_inputs
import proofs.«415451_j84851373900522_1_alg».proof.Proof.Spec

noncomputable section

namespace Cert.Qlora

open Idealize.ShloMosaic Idealize.ShloMosaic.TcCoe

/-- A word that is at least zero and below sixteen, signed, is one of the sixteen words 0 … 15. -/
theorem word_of_range (w : BitVec 32) (h0 : IntOp.cmpi .sge w 0#32 = 1#1) (h1 : IntOp.cmpi .slt w 16#32 = 1#1) :
    ∃ n : Fin 16, w = BitVec.ofNat 32 n.val := by
  have a0 : (0#32 : BitVec 32).toInt ≤ w.toInt := IntOp.cmpi_sge.1 h0
  have a1 : w.toInt < (16#32 : BitVec 32).toInt := IntOp.cmpi_slt.1 h1
  rw [show (0#32 : BitVec 32).toInt = 0 from by decide] at a0
  rw [show (16#32 : BitVec 32).toInt = 16 from by decide] at a1
  have hlt : w.toNat < 2 ^ 32 := w.isLt
  have hn : w.toNat < 16 := by
    rw [BitVec.toInt_eq_toNat_cond] at a0 a1
    split at a0 <;> omega
  refine ⟨⟨w.toNat, hn⟩, ?_⟩
  show w = BitVec.ofNat 32 w.toNat
  apply BitVec.eq_of_toNat_eq
  rw [BitVec.toNat_ofNat]
  omega

/-- On the word of code `n` the fifteen comparisons pick level `n`: the comparisons with larger codes fail,
    the one with `n` itself succeeds (for `n = 0` all fifteen fail and the starting level stays). -/
theorem lutK_ofNat (n : Fin 16) : lutK (BitVec.ofNat 32 n.val) = level n := by
  rcases n with ⟨n, hn⟩
  interval_cases n <;> simp only [lutK, BitVec.reduceEq, if_true, if_false] <;> rfl

/-- On the word of code `n` indexing reads level `n`: the word is not negative, so wrapping leaves it, and it
    is at most fifteen, so clamping leaves it. -/
theorem lutR_ofNat (n : Fin 16) : lutR (BitVec.ofNat 32 n.val) = level n := by
  have hc : ∀ m : Fin 16, min (wrapW (BitVec.ofNat 32 m.val)).toInt.toNat 15 = m.val := by decide
  unfold lutR
  exact congrArg level (Fin.ext (hc n))

/-- A word that is at least zero and below sixteen, signed, gets the same level from both lookups. -/
theorem lut_agree_of_range (w : BitVec 32) (h0 : IntOp.cmpi .sge w 0#32 = 1#1) (h1 : IntOp.cmpi .slt w 16#32 = 1#1) :
    lutK w = lutR w := by
  obtain ⟨n, rfl⟩ := word_of_range w h0 h1
  rw [lutK_ofNat, lutR_ofNat]

/-- Under the precondition the two lookups agree on every code. -/
theorem lut_agree_of_pre (x : FVec Ideal Cert.Pre_finite_inputs.S4x2048x4096 .f32) (codes : IVec Cert.Pre_finite_inputs.S4096x4096 32)
    (scales : FVec Ideal Cert.Pre_finite_inputs.S4096x64 .f32) (A : FVec Ideal Cert.Pre_finite_inputs.S16x4096 .f32)
    (B : FVec Ideal Cert.Pre_finite_inputs.S4096x16 .f32)
    (h : Cert.Pre_finite_inputs.fn (F := Ideal) x codes scales A B = fun _ => 1#1) :
    ∀ i, lutK (codes i) = lutR (codes i) := by
  intro i
  -- the result of the precondition has no axes, so it has one index
  haveI : Subsingleton Cert.Pre_finite_inputs.S_.Idx := ⟨fun a b => funext fun d => d.elim0⟩
  -- the conjunction at its one index: the last conjunct is the reduction over the codes' range test
  have h1 := congrFun h ValueIdx.ix0
  dsimp only [Cert.Pre_finite_inputs.fn, Cert.Pre_finite_inputs.fn_part1] at h1
  have h2 := (IntOp.andi_eq_one.1 h1).2
  -- every entry of the range test is one
  have h3 := Host.reduce_andi_all _ _ _ _ _ h2 i
  -- at entry i the test is the conjunction of the two compares of the code with the constants 0 and 16
  obtain ⟨hge, hlt⟩ := IntOp.andi_eq_one.1 h3
  exact lut_agree_of_range (codes i) hge hlt

end Cert.Qlora

end
-- ==== Proof.lean ====
/-
  A linear layer whose weights are stored as four-bit codes into a sixteen-level codebook, scaled in blocks of 64
  input positions, with a low-rank adapter added: `y = x Wᵀ + 2 (x Aᵀ) Bᵀ`, `W (o, d) = level (code (o, d)) · scale (o, d / 64)`.

  The kernel walks a grid of 8 × 4 × 8 points. Point `(i, j, k)` adds to an accumulator the product of rows
  `1024 i …` of the input with rows `1024 j …` of the weights over input positions `512 k …`, the weights rebuilt
  on the spot (the level by fifteen comparisons, the scale carried to its columns by a product with a 0/1 matrix),
  and to a second accumulator the same rows' products with `A`; the last point of each row of points writes the
  output block, the base sum plus twice the adapter's part. The reference builds the whole weight matrix (the
  level by indexing the codebook) and takes the products whole. On the extended reals the two are the same sums
  grouped differently, and addition there is commutative and associative, so no finiteness is needed for that; the
  two lookups agree on a code in `[0, 16)`, which is what the precondition says of every code.

  The frames of the two kernel programs are the generated ones; the reference's frame is its run with the result
  dropped.
-/
import proofs.«415451_j84851373900522_1_alg».proof.Defs
import proofs.«415451_j84851373900522_1_alg».proof.Proof.Gen.Kernel
import proofs.«415451_j84851373900522_1_alg».proof.Proof.Gen.Kernel.Frame
import proofs.«415451_j84851373900522_1_alg».proof.Proof.Gen.KernelIdeal
import proofs.«415451_j84851373900522_1_alg».proof.Proof.Gen.KernelIdeal.Frame
import proofs.«415451_j84851373900522_1_alg».proof.Proof.Gen.ReferenceIdeal
import proofs.«415451_j84851373900522_1_alg».proof.Proof.Gen.Pre_finite_inputs
import proofs.«415451_j84851373900522_1_alg».proof.Proof.KerFinal
import proofs.«415451_j84851373900522_1_alg».proof.Proof.RefRun
import proofs.«415451_j84851373900522_1_alg».proof.Proof.RefRead
import proofs.«415451_j84851373900522_1_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both programs end at the layer's result of the arguments: the kernel with the lookup by comparisons, the
    reference with the lookup by indexing, and under the precondition the two lookups agree on every code. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.refTerm_eq, (hagree c).1, (hagree c).2.1, (hagree c).2.2.1, (hagree c).2.2.2.1,
    (hagree c).2.2.2.2]
  exact (Cert.Qlora.out3_congr _ _ _ _ _ _ _ (Cert.Qlora.lut_agree_of_pre _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
